-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2000x512 : Shape := ⟨3, ![16, 2000, 512]⟩
abbrev S41x5632 : Shape := ⟨2, ![41, 5632]⟩
abbrev S41 : Shape := ⟨1, ![41]⟩
abbrev S_ : Shape := ⟨0, ![]⟩

class Facts : Prop where
  bcast_S_S16x2000x512 : S_.BroadcastsInDim S16x2000x512 (![] : Fin 0 → Fin S16x2000x512.rank)
  reducesTo_S16x2000x512_S_d0_1_2 : S16x2000x512.ReducesTo [0, 1, 2] S_
  h_S_ : 0 < S_.numel
  bcast_S_S41x5632 : S_.BroadcastsInDim S41x5632 (![] : Fin 0 → Fin S41x5632.rank)
  reducesTo_S41x5632_S_d0_1 : S41x5632.ReducesTo [0, 1] S_
  bcast_S_S41 : S_.BroadcastsInDim S41 (![] : Fin 0 → Fin S41.rank)
  reducesTo_S41_S_d0 : S41.ReducesTo [0] S_

variable [Facts]

def fn {F : FTy → Type} [FloatOps F] (main_arg0 : FVec F S16x2000x512 .f32) (main_arg1 : FVec F S41x5632 .f32) (main_arg2 : FVec F S41 .f32) : IVec S_ 1 :=
  let main_v0 : FVec F S16x2000x512 .f32 := Host.absf main_arg0
  let main_cst : FVec F S_ .f32 := constant S_ .f32 0x7F800000#32
  let main_v1 : FVec F S16x2000x512 .f32 := broadcastInDim S16x2000x512 ![] bcast_S_S16x2000x512 main_cst
  let main_v2 : IVec S16x2000x512 1 := cmpf .olt main_v0 main_v1
  let main_c : IVec S_ 1 := constantI S_ 1 1#1
  let main_v3 : IVec S_ 1 := (fun x v => Host.reduce IntOp.andi x v reducesTo_S16x2000x512_S_d0_1_2 h_S_) main_v2 main_c
  let main_v4 : FVec F S41x5632 .f32 := Host.absf main_arg1
  let main_cst_0 : FVec F S_ .f32 := constant S_ .f32 0x7F800000#32
  let main_v5 : FVec F S41x5632 .f32 := broadcastInDim S41x5632 ![] bcast_S_S41x5632 main_cst_0
  let main_v6 : IVec S41x5632 1 := cmpf .olt main_v4 main_v5
  let main_c_1 : IVec S_ 1 := constantI S_ 1 1#1
  let main_v7 : IVec S_ 1 := (fun x v => Host.reduce IntOp.andi x v reducesTo_S41x5632_S_d0_1 h_S_) main_v6 main_c_1
  let main_v8 : IVec S_ 1 := andi main_v3 main_v7
  let main_v9 : FVec F S41 .f32 := Host.absf main_arg2
  let main_cst_2 : FVec F S_ .f32 := constant S_ .f32 0x7F800000#32
  let main_v10 : FVec F S41 .f32 := broadcastInDim S41 ![] bcast_S_S41 main_cst_2
  let main_v11 : IVec S41 1 := cmpf .olt main_v9 main_v10
  let main_c_3 : IVec S_ 1 := constantI S_ 1 1#1
  let main_v12 : IVec S_ 1 := (fun x v => Host.reduce IntOp.andi x v reducesTo_S41_S_d0 h_S_) main_v11 main_c_3
  let main_v13 : IVec S_ 1 := andi main_v8 main_v12
  main_v13
-- ==== Kernel.lean ====
abbrev S16x2000x512 : Shape := ⟨3, ![16, 2000, 512]⟩
abbrev S41x5632 : Shape := ⟨2, ![41, 5632]⟩
abbrev S41 : Shape := ⟨1, ![41]⟩
abbrev S1x41 : Shape := ⟨2, ![1, 41]⟩
abbrev S16x2000x41 : Shape := ⟨3, ![16, 2000, 41]⟩
abbrev S1x2000x512 : Shape := ⟨3, ![1, 2000, 512]⟩
abbrev S1x2000x41 : Shape := ⟨3, ![1, 2000, 41]⟩
abbrev S2010x512 : Shape := ⟨2, ![2010, 512]⟩
abbrev S2000x512 : Shape := ⟨2, ![2000, 512]⟩
abbrev S2002x512 : Shape := ⟨2, ![2002, 512]⟩
abbrev S1x512 : Shape := ⟨2, ![1, 512]⟩
abbrev S5x512 : Shape := ⟨2, ![5, 512]⟩
abbrev S6x512 : Shape := ⟨2, ![6, 512]⟩
abbrev S2000x41 : Shape := ⟨2, ![2000, 41]⟩
abbrev S41x512 : Shape := ⟨2, ![41, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x2000x512, .f32⟩
  | .hbm, ⟨1, _⟩ => ⟨S41x5632, .f32⟩
  | .hbm, ⟨2, _⟩ => ⟨S41, .f32⟩
  | .hbm, ⟨3, _⟩ => ⟨S1x41, .f32⟩
  | .hbm, ⟨4, _⟩ => ⟨S16x2000x41, .f32⟩
  | .local _ .vmem, ⟨0, _⟩ => ⟨S1x2000x512, .f32⟩
  | .local _ .vmem, ⟨1, _⟩ => ⟨S1x2000x512, .f32⟩
  | .local _ .vmem, ⟨2, _⟩ => ⟨S41x5632, .f32⟩
  | .local _ .vmem, ⟨3, _⟩ => ⟨S1x41, .f32⟩
  | .local _ .vmem, ⟨4, _⟩ => ⟨S1x2000x41, .f32⟩
  | .local _ .vmem, ⟨5, _⟩ => ⟨S1x2000x41, .f32⟩
  | .local _ .vmem, ⟨6, _⟩ => ⟨S2010x512, .bf16⟩
  | _, _ => ⟨S16x2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S41x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x41 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2000x41 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S41_S1x41 : S41.ShapeCasts S1x41
  inb_S1x2000x512_S1x2000x512_0_0_0 : ∀ a, (![0, 0, 0] : Fin 3 → Nat) a + S1x2000x512.size a ≤ S1x2000x512.size a
  h_S1x2000x512 : 0 < S1x2000x512.numel
  shapeCasts_S1x2000x512_S2000x512 : S1x2000x512.ShapeCasts S2000x512
  bitsLt_bf16_f32 : FTy.bits .bf16 < FTy.bits .f32
  inb_S2010x512_S2000x512_5_0 : ∀ a, (![5, 0] : Fin 2 → Nat) a + S2000x512.size a ≤ S2010x512.size a
  h_S2000x512 : 0 < S2000x512.numel
  shapeCasts_S2000x512_S2000x512 : S2000x512.ShapeCasts S2000x512
  inb_S2010x512_S2002x512_4_0 : ∀ a, (![4, 0] : Fin 2 → Nat) a + S2002x512.size a ≤ S2010x512.size a
  h_S2002x512 : 0 < S2002x512.numel
  slices_S2002x512_S2000x512_1_0 : S2002x512.Slices ![1, 0] S2000x512
  packedbf16_S2010x512_S2002x512_4_0 : (Rect.unit (s := S2010x512) ![4, 0] S2002x512.size inb_S2010x512_S2002x512_4_0).PackedRows (EltTy.packing .bf16)
  slices_S2000x512_o0_0_S1x512 : S2000x512.Slices ![0, 0] S1x512
  shapeCasts_S1x512_S1x512 : S1x512.ShapeCasts S1x512
  broadcasts_S1x512_S5x512 : S1x512.Broadcasts S5x512
  inb_S2010x512_S5x512_0_0 : ∀ a, (![0, 0] : Fin 2 → Nat) a + S5x512.size a ≤ S2010x512.size a
  h_S5x512 : 0 < S5x512.numel
  shapeCasts_S5x512_S5x512 : S5x512.ShapeCasts S5x512
  inb_S2010x512_S6x512_0_0 : ∀ a, (![0, 0] : Fin 2 → Nat) a + S6x512.size a ≤ S2010x512.size a
  h_S6x512 : 0 < S6x512.numel
  slices_S6x512_S5x512_0_0 : S6x512.Slices ![0, 0] S5x512
  packedbf16_S2010x512_S6x512_0_0 : (Rect.unit (s := S2010x512) ![0, 0] S6x512.size inb_S2010x512_S6x512_0_0).PackedRows (EltTy.packing .bf16)
  slices_S2000x512_o1999_0_S1x512 : S2000x512.Slices ![1999, 0] S1x512
  inb_S2010x512_S5x512_2005_0 : ∀ a, (![2005, 0] : Fin 2 → Nat) a + S5x512.size a ≤ S2010x512.size a
  inb_S2010x512_S6x512_2004_0 : ∀ a, (![2004, 0] : Fin 2 → Nat) a + S6x512.size a ≤ S2010x512.size a
  slices_S6x512_S5x512_1_0 : S6x512.Slices ![1, 0] S5x512
  packedbf16_S2010x512_S6x512_2004_0 : (Rect.unit (s := S2010x512) ![2004, 0] S6x512.size inb_S2010x512_S6x512_2004_0).PackedRows (EltTy.packing .bf16)
  inb_S41x5632_S41x5632_0_0 : ∀ a, (![0, 0] : Fin 2 → Nat) a + S41x5632.size a ≤ S41x5632.size a
  h_S41x5632 : 0 < S41x5632.numel
  inb_S2010x512_S2000x512_10_0 : ∀ a, (![10, 0] : Fin 2 → Nat) a + S2000x512.size a ≤ S2010x512.size a
  slices_S41x5632_o0_0_S41x512 : S41x5632.Slices ![0, 0] S41x512
  inb_S2010x512_S2000x512_9_0 : ∀ a, (![9, 0] : Fin 2 → Nat) a + S2000x512.size a ≤ S2010x512.size a
  slices_S41x5632_o0_512_S41x512 : S41x5632.Slices ![0, 512] S41x512
  inb_S2010x512_S2000x512_8_0 : ∀ a, (![8, 0] : Fin 2 → Nat) a + S2000x512.size a ≤ S2010x512.size a
  slices_S41x5632_o0_1024_S41x512 : S41x5632.Slices ![0, 1024] S41x512
  inb_S2010x512_S2000x512_7_0 : ∀ a, (![7, 0] : Fin 2 → Nat) a + S2000x512.size a ≤ S2010x512.size a
  slices_S41x5632_o0_1536_S41x512 : S41x5632.Slices ![0, 1536] S41x512
  inb_S2010x512_S2000x512_6_0 : ∀ a, (![6, 0] : Fin 2 → Nat) a + S2000x512.size a ≤ S2010x512.size a
  slices_S41x5632_o0_2048_S41x512 : S41x5632.Slices ![0, 2048] S41x512
  slices_S41x5632_o0_2560_S41x512 : S41x5632.Slices ![0, 2560] S41x512
  inb_S2010x512_S2000x512_4_0 : ∀ a, (![4, 0] : Fin 2 → Nat) a + S2000x512.size a ≤ S2010x512.size a
  slices_S41x5632_o0_3072_S41x512 : S41x5632.Slices ![0, 3072] S41x512
  inb_S2010x512_S2000x512_3_0 : ∀ a, (![3, 0] : Fin 2 → Nat) a + S2000x512.size a ≤ S2010x512.size a
  slices_S41x5632_o0_3584_S41x512 : S41x5632.Slices ![0, 3584] S41x512
  inb_S2010x512_S2000x512_2_0 : ∀ a, (![2, 0] : Fin 2 → Nat) a + S2000x512.size a ≤ S2010x512.size a
  slices_S41x5632_o0_4096_S41x512 : S41x5632.Slices ![0, 4096] S41x512
  inb_S2010x512_S2000x512_1_0 : ∀ a, (![1, 0] : Fin 2 → Nat) a + S2000x512.size a ≤ S2010x512.size a
  slices_S41x5632_o0_4608_S41x512 : S41x5632.Slices ![0, 4608] S41x512
  inb_S2010x512_S2000x512_0_0 : ∀ a, (![0, 0] : Fin 2 → Nat) a + S2000x512.size a ≤ S2010x512.size a
  slices_S41x5632_o0_5120_S41x512 : S41x5632.Slices ![0, 5120] S41x512
  inb_S1x41_S1x41_0_0 : ∀ a, (![0, 0] : Fin 2 → Nat) a + S1x41.size a ≤ S1x41.size a
  h_S1x41 : 0 < S1x41.numel
  shapeCasts_S1x41_S41 : S1x41.ShapeCasts S41
  broadcasts_S1x41_S2000x41 : S1x41.Broadcasts S2000x41
  inb_S1x2000x41_S1x2000x41_0_0_0 : ∀ a, (![0, 0, 0] : Fin 3 → Nat) a + S1x2000x41.size a ≤ S1x2000x41.size a
  h_S1x2000x41 : 0 < S1x2000x41.numel
  shapeCasts_S1x2000x41_S2000x41 : S1x2000x41.ShapeCasts S2000x41
  shapeCasts_S2000x41_S1x2000x41 : S2000x41.ShapeCasts S1x2000x41
  dot_S2000x512_S41x512_S2000x41_1_1_0_0_n_n_wf : DotDims.WF S2000x512 S41x512 S2000x41 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x512.size a ≤ S16x2000x512.size a
  hwx0_0 : ∀ i : grid0.Coords, EltTy.bits .f32 = 32 ∨ (Rect.block (s := S16x2000x512) S1x2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S41x5632.size a ≤ S41x5632.size a
  hwx0_1 : ∀ i : grid0.Coords, EltTy.bits .f32 = 32 ∨ (Rect.block (s := S41x5632) S41x5632.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x41.size a ≤ S1x41.size a
  hwx0_2 : ∀ i : grid0.Coords, EltTy.bits .f32 = 32 ∨ (Rect.block (s := S1x41) S1x41.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x41.size a ≤ S16x2000x41.size a
  hwx0_3 : ∀ i : grid0.Coords, EltTy.bits .f32 = 32 ∨ (Rect.block (s := S16x2000x41) S1x2000x41.size (cc0_transform_3 i) (hinb0_3 i)).WholeWords (EltTy.packing .f32)

variable [Facts₀]

def dot_S2000x512_S41x512_S2000x41_1_1_0_0_n_n : DotDims S2000x512 S41x512 S2000x41 where
  lhsContracting := [1]
  rhsContracting := [1]
  lhsNonContracting := [0]
  rhsNonContracting := [0]
  lhsBatch := []
  rhsBatch := []
  wf := dot_S2000x512_S41x512_S2000x41_1_1_0_0_n_n_wf

abbrev win0_0 : Pipeline.Window sig grid0 :=
  Pipeline.Window.ofSpec (Memref.whole main_arg0) S1x2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S41x5632.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x41.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2000x41.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2000x512 : Shape := ⟨3, ![16, 2000, 512]⟩
abbrev S41x5632 : Shape := ⟨2, ![41, 5632]⟩
abbrev S41 : Shape := ⟨1, ![41]⟩
abbrev S11 : Shape := ⟨1, ![11]⟩
abbrev S_ : Shape := ⟨0, ![]⟩
abbrev S2000 : Shape := ⟨1, ![2000]⟩
abbrev S2000x1 : Shape := ⟨2, ![2000, 1]⟩
abbrev S1x11 : Shape := ⟨2, ![1, 11]⟩
abbrev S2000x11 : Shape := ⟨2, ![2000, 11]⟩
abbrev S2000x11x1 : Shape := ⟨3, ![2000, 11, 1]⟩
abbrev S16x2000x11x512 : Shape := ⟨4, ![16, 2000, 11, 512]⟩
abbrev S16x2000x5632 : Shape := ⟨3, ![16, 2000, 5632]⟩
abbrev S16x2000x41 : Shape := ⟨3, ![16, 2000, 41]⟩
abbrev S1x1x41 : Shape := ⟨3, ![1, 1, 41]⟩

abbrev nBuf : Space → Nat
  | .hbm => 35
  | .vmem => 0
  | .smem => 0
  | _ => 0

abbrev bufTy : (tb : Table) → Fin (tcTables nBuf tb) → BufTy
  | .hbm, ⟨0, _⟩ => ⟨S16x2000x512, .f32⟩
  | .hbm, ⟨1, _⟩ => ⟨S41x5632, .f32⟩
  | .hbm, ⟨2, _⟩ => ⟨S41, .f32⟩
  | .hbm, ⟨3, _⟩ => ⟨S11, .i32⟩
  | .hbm, ⟨4, _⟩ => ⟨S_, .i32⟩
  | .hbm, ⟨5, _⟩ => ⟨S11, .i32⟩
  | .hbm, ⟨6, _⟩ => ⟨S11, .i32⟩
  | .hbm, ⟨7, _⟩ => ⟨S2000, .i32⟩
  | .hbm, ⟨8, _⟩ => ⟨S2000x1, .i32⟩
  | .hbm, ⟨9, _⟩ => ⟨S1x11, .i32⟩
  | .hbm, ⟨10, _⟩ => ⟨S2000x11, .i32⟩
  | .hbm, ⟨11, _⟩ => ⟨S2000x11, .i32⟩
  | .hbm, ⟨12, _⟩ => ⟨S2000x11, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2000x11, .i32⟩
  | .hbm, ⟨17, _⟩ => ⟨S2000x11, .i32⟩
  | .hbm, ⟨18, _⟩ => ⟨S_, .i32⟩
  | .hbm, ⟨19, _⟩ => ⟨S2000x11, .i32⟩
  | .hbm, ⟨20, _⟩ => ⟨S2000x11, .i32⟩
  | .hbm, ⟨21, _⟩ => ⟨S_, .i32⟩
  | .hbm, ⟨22, _⟩ => ⟨S2000x11, .i32⟩
  | .hbm, ⟨23, _⟩ => ⟨S2000x11, .i1⟩
  | .hbm, ⟨24, _⟩ => ⟨S_, .i32⟩
  | .hbm, ⟨25, _⟩ => ⟨S2000x11, .i32⟩
  | .hbm, ⟨26, _⟩ => ⟨S2000x11, .i32⟩
  | .hbm, ⟨27, _⟩ => ⟨S2000x11, .i32⟩
  | .hbm, ⟨28, _⟩ => ⟨S2000x11x1, .i32⟩
  | .hbm, ⟨29, _⟩ => ⟨S16x2000x11x512, .f32⟩
  | .hbm, ⟨30, _⟩ => ⟨S16x2000x5632, .f32⟩
  | .hbm, ⟨31, _⟩ => ⟨S16x2000x41, .f32⟩
  | .hbm, ⟨32, _⟩ => ⟨S1x1x41, .f32⟩
  | .hbm, ⟨33, _⟩ => ⟨S16x2000x41, .f32⟩
  | .hbm, ⟨34, _⟩ => ⟨S16x2000x41, .f32⟩
  | _, _ => ⟨S16x2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S11 : S_.BroadcastsInDim S11 (![] : Fin 0 → Fin S11.rank)
  bcast_S2000_S2000x1_0 : S2000.BroadcastsInDim S2000x1 (![0] : Fin 1 → Fin S2000x1.rank)
  bcast_S11_S1x11_1 : S11.BroadcastsInDim S1x11 (![1] : Fin 1 → Fin S1x11.rank)
  bcast_S2000x1_S2000x11_0_1 : S2000x1.BroadcastsInDim S2000x11 (![0, 1] : Fin 2 → Fin S2000x11.rank)
  bcast_S1x11_S2000x11_0_1 : S1x11.BroadcastsInDim S2000x11 (![0, 1] : Fin 2 → Fin S2000x11.rank)
  bcast_S_S2000x11 : S_.BroadcastsInDim S2000x11 (![] : Fin 0 → Fin S2000x11.rank)
  bcast_S2000x11_S2000x11x1_0_1 : S2000x11.BroadcastsInDim S2000x11x1 (![0, 1] : Fin 2 → Fin S2000x11x1.rank)
  shapeCasts_S16x2000x11x512_S16x2000x5632 : S16x2000x11x512.ShapeCasts S16x2000x5632
  bcast_S41_S1x1x41_2 : S41.BroadcastsInDim S1x1x41 (![2] : Fin 1 → Fin S1x1x41.rank)
  bcast_S1x1x41_S16x2000x41_0_1_2 : S1x1x41.BroadcastsInDim S16x2000x41 (![0, 1, 2] : Fin 3 → Fin S16x2000x41.rank)
  gather_S16x2000x512_S2000x11x1_S16x2000x11x512_03_1_n_n_1_2_161512_wf : GatherDims.WF S16x2000x512 S2000x11x1 S16x2000x11x512 [0, 3] [1] [] [1] [] 2 ![16, 1, 512]
  dot_S16x2000x5632_S41x5632_S16x2000x41_2_1_01_0_n_n_wf : DotDims.WF S16x2000x5632 S41x5632 S16x2000x41 [2] [1] [0, 1] [0] [] []

variable [Facts₀]

def gather_S16x2000x512_S2000x11x1_S16x2000x11x512_03_1_n_n_1_2_161512 : GatherDims S16x2000x512 S2000x11x1 S16x2000x11x512 where
  offsetDims := [0, 3]
  collapsedSliceDims := [1]
  operandBatchingDims := []
  startIndicesBatchingDims := []
  startIndexMap := [1]
  indexVectorDim := 2
  sliceSizes := ![16, 1, 512]
  wf := gather_S16x2000x512_S2000x11x1_S16x2000x11x512_03_1_n_n_1_2_161512_wf
def dot_S16x2000x5632_S41x5632_S16x2000x41_2_1_01_0_n_n : DotDims S16x2000x5632 S41x5632 S16x2000x41 where
  lhsContracting := [2]
  rhsContracting := [1]
  lhsNonContracting := [0, 1]
  rhsNonContracting := [0]
  lhsBatch := []
  rhsBatch := []
  wf := dot_S16x2000x5632_S41x5632_S16x2000x41_2_1_01_0_n_n_wf

class Facts : Prop extends Facts₀ where

variable [Facts]
-- ==== Proof.K.Out.lean ====
/-
  What the kernel body leaves in its result block, as a function of its three input blocks, for any float
  instance.

  The body first fills the 2010-row scratch: rows 5 to 2004 take the batch's 2000 frames (cast to bf16), rows 0 to 4
  the first frame five times, rows 2005 to 2009 the last frame five times (`padded`). Each of the three stores is a
  read-modify-write of whole packed rows, but together they overwrite every row, so what the scratch holds afterwards
  depends on the frames alone. Channel `c` of the eleven then reads the 2000 rows starting at row `10 − c`, multiplies
  them with columns `512·c … 512·c + 511` of the weights into a zero accumulator, and the eleven products are added
  one after the other onto zero; the bias row is added last (`OUT`).
-/
import proofs.«124507_j28260884808343_1_alg».proof.Proof.Gen.Kernel.Skeleton
import Idealize.ShloMosaic.Lib.Pipeline.FrameBody
import Idealize.ShloMosaic.Lib.ValueIdx

noncomputable section

namespace Cert.Proof.K

open Cert.Kernel Cert.Kernel.Gen
open Idealize.ShloMosaic Idealize.ShloMosaic.ValueIdx

variable {F : FTy → Type} [FloatOps F]

/-- The scratch after the three stores: the frames with the first and the last repeated five times at either end. -/
def padded (x0 : Vec F S1x2000x512 .f32) : Vec F S2010x512 .bf16 := fun y =>
  if h3 : 2005 ≤ (y 0).val then
    k0_pay5 x0 (ix2 ⟨(y 0).val - 2005, by have := idx2_lt0 y; omega⟩ ⟨(y 1).val, idx2_lt1 y⟩)
  else if h0 : (y 0).val < 5 then
    k0_pay4 x0 (ix2 ⟨(y 0).val, h0⟩ ⟨(y 1).val, idx2_lt1 y⟩)
  else
    k0_pay3 x0 (ix2 ⟨(y 0).val - 5, by have := idx2_lt0 y; omega⟩ ⟨(y 1).val, idx2_lt1 y⟩)

/-- The 2000 rows of the scratch starting at row `k`, for `k = 0 … 10`. -/
abbrev win0 : Rect S2010x512 := Rect.unit (s := S2010x512) ![0, 0] S2000x512.size inb_S2010x512_S2000x512_0_0
abbrev win1 : Rect S2010x512 := Rect.unit (s := S2010x512) ![1, 0] S2000x512.size inb_S2010x512_S2000x512_1_0
abbrev win2 : Rect S2010x512 := Rect.unit (s := S2010x512) ![2, 0] S2000x512.size inb_S2010x512_S2000x512_2_0
abbrev win3 : Rect S2010x512 := Rect.unit (s := S2010x512) ![3, 0] S2000x512.size inb_S2010x512_S2000x512_3_0
abbrev win4 : Rect S2010x512 := Rect.unit (s := S2010x512) ![4, 0] S2000x512.size inb_S2010x512_S2000x512_4_0
abbrev win5 : Rect S2010x512 := Rect.unit (s := S2010x512) ![5, 0] S2000x512.size inb_S2010x512_S2000x512_5_0
abbrev win6 : Rect S2010x512 := Rect.unit (s := S2010x512) ![6, 0] S2000x512.size inb_S2010x512_S2000x512_6_0
abbrev win7 : Rect S2010x512 := Rect.unit (s := S2010x512) ![7, 0] S2000x512.size inb_S2010x512_S2000x512_7_0
abbrev win8 : Rect S2010x512 := Rect.unit (s := S2010x512) ![8, 0] S2000x512.size inb_S2010x512_S2000x512_8_0
abbrev win9 : Rect S2010x512 := Rect.unit (s := S2010x512) ![9, 0] S2000x512.size inb_S2010x512_S2000x512_9_0
abbrev win10 : Rect S2010x512 := Rect.unit (s := S2010x512) ![10, 0] S2000x512.size inb_S2010x512_S2000x512_10_0

/-- The accumulator after all eleven channels, from the padded frames `P` and the weights. -/
def ACC (P : Vec F S2010x512 .bf16) (x1 : Vec F S41x5632 .f32) : FVec F S2000x41 .f32 :=
  k0_pay8 (k0_pay6 x1) (k0_pay7 x1 (View.ld P win10) (View.ld P win9) (View.ld P win8))
    (View.ld P win7) (View.ld P win6) (View.ld P win5) (View.ld P win4) (View.ld P win3) (View.ld P win2)
    (View.ld P win1) (View.ld P win0)

/-- What the body stores into the result block. -/
def OUT (x0 : Vec F S1x2000x512 .f32) (x1 : Vec F S41x5632 .f32) (x2 : Vec F S1x41 .f32) : Vec F S1x2000x41 .f32 :=
  k0_pay1 (ACC (padded x0) x1) (k0_pay9 x2)

end Cert.Proof.K

end
-- ==== Proof.K.Padded.lean ====
/-
  The scratch after the body's three stores holds the padded frames, whatever it held before.

  Each store writes whole packed rows: it reads the rows of a rectangle, replaces some of them by its payload and writes
  the rectangle back. The first covers rows 4 to 2005 and replaces rows 5 to 2004 by the frames; the second covers rows
  0 to 5 and replaces rows 0 to 4 by the first frame; the third covers rows 2004 to 2009 and replaces rows 2005 to 2009
  by the last frame. A row that a store carries over unchanged (4 and 2005 in the first, 5 in the second, 2004 in the
  third) was either written by an earlier store of the three or is written by a later one, so after the third store
  every row is a payload row: the contents are `padded` of the frames, and the prior contents have dropped out.
-/
import proofs.«124507_j28260884808343_1_alg».proof.Proof.K.Out
import Idealize.ShloMosaic.Lib.Pipeline.Value
import Idealize.ShloMosaic.Lib.WritesUnit

noncomputable section

namespace Cert.Proof.K

open Cert.Kernel Cert.Kernel.Gen
open Idealize.ShloMosaic Idealize.ShloMosaic.ValueIdx

variable {F : FTy → Type} [FloatOps F]

/-! ## Rows replaced inside a block of rows -/

section Rows
variable {α : Type} {N U C : Nat}

/-- A row the update covers reads the update. -/
theorem updateSlice_rows_hit (old : (⟨2, ![N, C]⟩ : Shape).Idx → α) (upd : (⟨2, ![U, C]⟩ : Shape).Idx → α) (s : Nat)
    (h : (⟨2, ![N, C]⟩ : Shape).Slices ![s, 0] ⟨2, ![U, C]⟩) (r : Fin N) (q : Fin C) (hr : s ≤ r.val ∧ r.val < s + U) :
    updateSlice old upd ![s, 0] h (ix2 r q) = upd (ix2 ⟨r.val - s, by omega⟩ q) := by
  unfold updateSlice
  rw [dif_pos (fun a => by
    match a with
    | ⟨0, _⟩ => exact hr
    | ⟨1, _⟩ => exact ⟨Nat.zero_le _, by show q.val < 0 + C; have := q.isLt; omega⟩)]
  refine congrArg upd (funext fun b => Fin.ext ?_)
  match b with
  | ⟨0, _⟩ => rfl
  | ⟨1, _⟩ => exact Nat.sub_zero _

/-- A row the update does not cover reads the old contents. -/
theorem updateSlice_rows_miss (old : (⟨2, ![N, C]⟩ : Shape).Idx → α) (upd : (⟨2, ![U, C]⟩ : Shape).Idx → α) (s : Nat)
    (h : (⟨2, ![N, C]⟩ : Shape).Slices ![s, 0] ⟨2, ![U, C]⟩) (r : Fin N) (q : Fin C) (hr : r.val < s ∨ s + U ≤ r.val) :
    updateSlice old upd ![s, 0] h (ix2 r q) = old (ix2 r q) := by
  unfold updateSlice
  rw [dif_neg (fun hall => by
    have h0 : s ≤ r.val ∧ r.val < s + U := hall (0 : Fin 2)
    omega)]

end Rows

/-! ## A block of whole rows of the scratch -/

section Block
variable {o W : Nat} (inb : ∀ a, (![o, 0] : Fin 2 → ℕ) a + (![W, 512] : Fin 2 → ℕ) a ≤ S2010x512.size a)

/-- Row `r − o` of the block of rows `[o, o + W)` is row `r` of the scratch. -/
theorem block_emb (r : Fin 2010) (q : Fin 512) (hr : o ≤ r.val ∧ r.val < o + W) :
    (Rect.unit (s := S2010x512) ![o, 0] ![W, 512] inb).emb (ix2 ⟨r.val - o, by omega⟩ q) = ix2 r q := by
  funext a
  refine Fin.ext ?_
  match a with
  | ⟨0, _⟩ => show o + 1 * (r.val - o) = r.val; omega
  | ⟨1, _⟩ => show 0 + 1 * q.val = q.val; omega

/-- Row `a` of the block is row `o + a` of the scratch. -/
theorem block_idx (a : Fin W) (q : Fin 512) (hlt : o + a.val < 2010) :
    (Rect.unit (s := S2010x512) ![o, 0] ![W, 512] inb).idx (ix2 a q) = ix2 ⟨o + a.val, hlt⟩ q := by
  funext b
  refine Fin.ext ?_
  match b with
  | ⟨0, _⟩ => show o + 1 * a.val = o + a.val; omega
  | ⟨1, _⟩ => show 0 + 1 * q.val = q.val; omega

theorem block_not_mem (r : Fin 2010) (q : Fin 512) (hr : r.val < o ∨ o + W ≤ r.val) :
    ix2 r q ∉ (Rect.unit (s := S2010x512) ![o, 0] ![W, 512] inb).set := by
  rw [Rect.mem_set_unit]
  intro hall
  have h0 : o ≤ r.val ∧ r.val < o + W := hall (0 : Fin 2)
  omega

variable (w : (Rect.unit (s := S2010x512) ![o, 0] ![W, 512] inb).shape.Idx → Elt F .bf16)
  (L : List (View.Piece (Elt F) S2010x512 .bf16))

/-- Under the newest block, what the list of stores leaves is the block's payload; -/
theorem canon_block_mem (r : Fin 2010) (q : Fin 512) (hr : o ≤ r.val ∧ r.val < o + W) :
    View.canon (⟨Rect.unit (s := S2010x512) ![o, 0] ![W, 512] inb, w⟩ :: L) (ix2 r q) = w (ix2 ⟨r.val - o, by omega⟩ q) := by
  rw [← block_emb inb r q hr]
  exact View.canon_cons_emb _ w L _

/-- off it, what the earlier stores left. -/
theorem canon_block_not_mem (r : Fin 2010) (q : Fin 512) (hr : r.val < o ∨ o + W ≤ r.val) :
    View.canon (⟨Rect.unit (s := S2010x512) ![o, 0] ![W, 512] inb, w⟩ :: L) (ix2 r q) = View.canon L (ix2 r q) :=
  View.canon_cons_of_not_mem _ L (block_not_mem inb r q hr)

variable (v : View sig .tc .vmem S2010x512 .bf16) (f : v.ty.Contents (Elt F))

/-- The same for the contents of a buffer after the stores. -/
theorem read_block_mem (r : Fin 2010) (q : Fin 512) (hr : o ≤ r.val ∧ r.val < o + W) :
    v.read (Elt F) (v.writes (Elt F) f (⟨Rect.unit (s := S2010x512) ![o, 0] ![W, 512] inb, w⟩ :: L)) (ix2 r q)
      = w (ix2 ⟨r.val - o, by omega⟩ q) := by
  rw [← block_emb inb r q hr]
  exact View.read_writes_cons_emb v f _ w L _

theorem read_block_not_mem (r : Fin 2010) (q : Fin 512) (hr : r.val < o ∨ o + W ≤ r.val) :
    v.read (Elt F) (v.writes (Elt F) f (⟨Rect.unit (s := S2010x512) ![o, 0] ![W, 512] inb, w⟩ :: L)) (ix2 r q)
      = v.read (Elt F) (v.writes (Elt F) f L) (ix2 r q) := by
  rw [View.writes_cons]
  exact View.read_slice_write_of_not_mem _ _ _ _ (by rw [Rect.map_emb_univ]; exact block_not_mem inb r q hr)

/-- A load of the block reads the buffer's rows `o + a`. -/
theorem readAt_block (a : Fin W) (q : Fin 512) (hlt : o + a.val < 2010) :
    v.readAt (Elt F) (Rect.unit (s := S2010x512) ![o, 0] ![W, 512] inb).toLoadRect f (ix2 a q)
      = v.read (Elt F) f (ix2 ⟨o + a.val, hlt⟩ q) := by
  rw [View.readAt_eq_ld]
  show v.read (Elt F) f ((Rect.unit (s := S2010x512) ![o, 0] ![W, 512] inb).idx (ix2 a q)) = _
  rw [block_idx inb a q hlt]

end Block

/-! ## The three stores -/

section Stores
variable (v : View sig .tc .vmem S2010x512 .bf16) (g : v.ty.Contents (Elt F)) (x0 : Vec F S1x2000x512 .f32)

/-- Rows 4 to 2005 with rows 5 to 2004 replaced by the frames. -/
def storeA : View.Piece (Elt F) S2010x512 .bf16 :=
  ⟨Rect.unit (s := S2010x512) ![4, 0] S2002x512.size inb_S2010x512_S2002x512_4_0,
    updateSlice (v.readAt (Elt F) (Rect.unit (s := S2010x512) ![4, 0] S2002x512.size inb_S2010x512_S2002x512_4_0).toLoadRect g)
      (k0_pay3 x0) ![1, 0] slices_S2002x512_S2000x512_1_0⟩

/-- Rows 0 to 5 with rows 0 to 4 replaced by the first frame. -/
def storeB : View.Piece (Elt F) S2010x512 .bf16 :=
  ⟨Rect.unit (s := S2010x512) ![0, 0] S6x512.size inb_S2010x512_S6x512_0_0,
    updateSlice (v.readAt (Elt F) (Rect.unit (s := S2010x512) ![0, 0] S6x512.size inb_S2010x512_S6x512_0_0).toLoadRect
        (v.writes (Elt F) g [storeA v g x0]))
      (k0_pay4 x0) ![0, 0] slices_S6x512_S5x512_0_0⟩

/-- Rows 2004 to 2009 with rows 2005 to 2009 replaced by the last frame. -/
def storeC : View.Piece (Elt F) S2010x512 .bf16 :=
  ⟨Rect.unit (s := S2010x512) ![2004, 0] S6x512.size inb_S2010x512_S6x512_2004_0,
    updateSlice (v.readAt (Elt F) (Rect.unit (s := S2010x512) ![2004, 0] S6x512.size inb_S2010x512_S6x512_2004_0).toLoadRect
        (v.writes (Elt F) g [storeB v g x0, storeA v g x0]))
      (k0_pay5 x0) ![1, 0] slices_S6x512_S5x512_1_0⟩

theorem padded_hi (r : Fin 2010) (q : Fin 512) (h : 2005 ≤ r.val) :
    padded x0 (ix2 r q) = k0_pay5 x0 (ix2 ⟨r.val - 2005, by omega⟩ q) := by
  unfold padded; exact dif_pos h

theorem padded_lo (r : Fin 2010) (q : Fin 512) (h : r.val < 5) :
    padded x0 (ix2 r q) = k0_pay4 x0 (ix2 ⟨r.val, h⟩ q) := by
  unfold padded; rw [dif_neg (show ¬ 2005 ≤ ((ix2 r q : S2010x512.Idx) 0).val from by show ¬ 2005 ≤ r.val; omega)]; exact dif_pos h

theorem padded_mid (r : Fin 2010) (q : Fin 512) (h : 5 ≤ r.val ∧ r.val < 2005) :
    padded x0 (ix2 r q) = k0_pay3 x0 (ix2 ⟨r.val - 5, by omega⟩ q) := by
  unfold padded
  rw [dif_neg (show ¬ 2005 ≤ ((ix2 r q : S2010x512.Idx) 0).val from by show ¬ 2005 ≤ r.val; omega),
    dif_neg (show ¬ ((ix2 r q : S2010x512.Idx) 0).val < 5 from by show ¬ r.val < 5; omega)]

/-- After the first store, rows 5 to 2004 hold the frames. -/
theorem read_afterA (r : Fin 2010) (q : Fin 512) (h : 5 ≤ r.val ∧ r.val < 2005) :
    v.read (Elt F) (v.writes (Elt F) g [storeA v g x0]) (ix2 r q) = k0_pay3 x0 (ix2 ⟨r.val - 5, by omega⟩ q) := by
  unfold storeA
  refine (read_block_mem (o := 4) (W := 2002) inb_S2010x512_S2002x512_4_0 _ [] v g r q ⟨by omega, by omega⟩).trans ?_
  refine (updateSlice_rows_hit (N := 2002) (U := 2000) (C := 512) _ (k0_pay3 x0) 1 slices_S2002x512_S2000x512_1_0
    ⟨r.val - 4, by omega⟩ q ⟨by show 1 ≤ r.val - 4; omega, by show r.val - 4 < 1 + 2000; omega⟩).trans ?_
  exact congrArg (k0_pay3 x0) (congrArg (fun a => ix2 a q) (Fin.ext (by show r.val - 4 - 1 = r.val - 5; omega)))

/-- After the second store, rows 6 to 2004 still do. -/
theorem read_afterB (r : Fin 2010) (q : Fin 512) (h : 6 ≤ r.val ∧ r.val < 2005) :
    v.read (Elt F) (v.writes (Elt F) g [storeB v g x0, storeA v g x0]) (ix2 r q) = k0_pay3 x0 (ix2 ⟨r.val - 5, by omega⟩ q) := by
  refine Eq.trans ?_ (read_afterA v g x0 r q ⟨by omega, h.2⟩)
  unfold storeB
  exact read_block_not_mem (o := 0) (W := 6) inb_S2010x512_S6x512_0_0 _ _ v g r q (Or.inr (by omega))

/-- What the three stores leave is the padded frames. -/
theorem canon_stores : View.canon [storeC v g x0, storeB v g x0, storeA v g x0] = padded x0 := by
  funext y
  obtain ⟨r, q, rfl⟩ : ∃ (r : Fin 2010) (q : Fin 512), y = ix2 r q := ⟨y 0, y 1, eq_ix2 y⟩
  by_cases h3 : 2005 ≤ r.val
  · -- a row the third store replaces
    rw [padded_hi x0 r q h3]
    unfold storeC
    refine (canon_block_mem (o := 2004) (W := 6) inb_S2010x512_S6x512_2004_0 _ _ r q ⟨by omega, by have := r.isLt; omega⟩).trans ?_
    refine (updateSlice_rows_hit (N := 6) (U := 5) (C := 512) _ (k0_pay5 x0) 1 slices_S6x512_S5x512_1_0
      ⟨r.val - 2004, by have := r.isLt; omega⟩ q ⟨by show 1 ≤ r.val - 2004; omega, by show r.val - 2004 < 1 + 5; have := r.isLt; omega⟩).trans ?_
    exact congrArg (k0_pay5 x0) (congrArg (fun a => ix2 a q) (Fin.ext (by show r.val - 2004 - 1 = r.val - 2005; omega)))
  · by_cases h4 : r.val = 2004
    · -- the row the third store carries over: the first store wrote the last frame there
      rw [padded_mid x0 r q ⟨by omega, by omega⟩]
      unfold storeC
      refine (canon_block_mem (o := 2004) (W := 6) inb_S2010x512_S6x512_2004_0 _ _ r q ⟨by omega, by omega⟩).trans ?_
      refine (updateSlice_rows_miss (N := 6) (U := 5) (C := 512) _ (k0_pay5 x0) 1 slices_S6x512_S5x512_1_0
        ⟨r.val - 2004, by omega⟩ q (Or.inl (by show r.val - 2004 < 1; omega))).trans ?_
      refine (readAt_block (o := 2004) (W := 6) inb_S2010x512_S6x512_2004_0 v _ ⟨r.val - 2004, by omega⟩ q (by show 2004 + (r.val - 2004) < 2010; omega)).trans ?_
      refine Eq.trans (congrArg (v.read (Elt F) _) (congrArg (fun a => ix2 a q) (Fin.ext (by show 2004 + (r.val - 2004) = r.val; omega)))) ?_
      exact read_afterB v g x0 r q ⟨by omega, by omega⟩
    · unfold storeC
      refine (canon_block_not_mem (o := 2004) (W := 6) inb_S2010x512_S6x512_2004_0 _ _ r q (Or.inl (by omega))).trans ?_
      by_cases h0 : r.val < 5
      · -- a row the second store replaces
        rw [padded_lo x0 r q h0]
        unfold storeB
        refine (canon_block_mem (o := 0) (W := 6) inb_S2010x512_S6x512_0_0 _ _ r q ⟨by omega, by omega⟩).trans ?_
        refine (updateSlice_rows_hit (N := 6) (U := 5) (C := 512) _ (k0_pay4 x0) 0 slices_S6x512_S5x512_0_0
          ⟨r.val - 0, by omega⟩ q ⟨by show 0 ≤ r.val - 0; omega, by show r.val - 0 < 0 + 5; omega⟩).trans ?_
        exact congrArg (k0_pay4 x0) (congrArg (fun a => ix2 a q) (Fin.ext (by show r.val - 0 - 0 = r.val; omega)))
      · rw [padded_mid x0 r q ⟨by omega, by omega⟩]
        by_cases h5 : r.val = 5
        · -- the row the second store carries over: the first store wrote the first frame there
          unfold storeB
          refine (canon_block_mem (o := 0) (W := 6) inb_S2010x512_S6x512_0_0 _ _ r q ⟨by omega, by omega⟩).trans ?_
          refine (updateSlice_rows_miss (N := 6) (U := 5) (C := 512) _ (k0_pay4 x0) 0 slices_S6x512_S5x512_0_0
            ⟨r.val - 0, by omega⟩ q (Or.inr (by show 0 + 5 ≤ r.val - 0; omega))).trans ?_
          refine (readAt_block (o := 0) (W := 6) inb_S2010x512_S6x512_0_0 v _ ⟨r.val - 0, by omega⟩ q (by show 0 + (r.val - 0) < 2010; omega)).trans ?_
          refine Eq.trans (congrArg (v.read (Elt F) _) (congrArg (fun a => ix2 a q) (Fin.ext (by show 0 + (r.val - 0) = r.val; omega)))) ?_
          exact read_afterA v g x0 r q ⟨by omega, by omega⟩
        · -- a row only the first store touches
          unfold storeB
          refine (canon_block_not_mem (o := 0) (W := 6) inb_S2010x512_S6x512_0_0 _ _ r q (Or.inr (by omega))).trans ?_
          unfold storeA
          refine (canon_block_mem (o := 4) (W := 2002) inb_S2010x512_S2002x512_4_0 _ _ r q ⟨by omega, by omega⟩).trans ?_
          refine (updateSlice_rows_hit (N := 2002) (U := 2000) (C := 512) _ (k0_pay3 x0) 1 slices_S2002x512_S2000x512_1_0
            ⟨r.val - 4, by omega⟩ q ⟨by show 1 ≤ r.val - 4; omega, by show r.val - 4 < 1 + 2000; omega⟩).trans ?_
          exact congrArg (k0_pay3 x0) (congrArg (fun a => ix2 a q) (Fin.ext (by show r.val - 4 - 1 = r.val - 5; omega)))

end Stores

end Cert.Proof.K

end
-- ==== Proof.K.Body.lean ====
/-
  The kernel body's triple, the pipeline's proof data and the frame run, for any float instance.

  The body reads its three input blocks (the batch's frames, the weights, the bias row), fills the scratch with the
  padded frames, reads the eleven shifted windows of it back and stores the result block. Run symbolically, the
  scratch ends as the three stores over whatever it held, and each window read back is what those stores left at the
  window's rows; by `canon_stores` that is the padded frames, so the stored block is `OUT` of the three input blocks
  (`out_of_stores`, `sound_kernel`).

  The scratch is rewritten whole at every grid point before it is read, so between points it is held at anything: the
  invariant is the one that only owns the scoped buffers. The proof data name each input window's buffer after the body
  as its block and the result window's as `OUT` of the three blocks at that point; the launch theorem then gives the run
  of @main with every argument array unchanged and the result array assembled from the sixteen blocks.
-/
import proofs.«124507_j28260884808343_1_alg».proof.Proof.K.Padded
import proofs.«124507_j28260884808343_1_alg».proof.Proof.Gen.Kernel.Skeleton
import proofs.«124507_j28260884808343_1_alg».proof.Proof.Gen.Kernel.Frame
import Idealize.ShloMosaic.Lib.Pipeline.Value

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- No variant is used: the body has no counted loop. -/
abbrev 𝒱₀ : Variants := Variants.none

/-! ## Whole-buffer rectangles -/

theorem zero3 : (![0, 0, 0] : Fin 3 → ℕ) = fun _ => 0 := funext fun a => by fin_cases a <;> rfl
theorem zero2 : (![0, 0] : Fin 2 → ℕ) = fun _ => 0 := funext fun a => by fin_cases a <;> rfl

abbrev whole0 : Rect S1x2000x512 := Rect.unit (s := S1x2000x512) ![0, 0, 0] S1x2000x512.size inb_S1x2000x512_S1x2000x512_0_0_0
abbrev whole1 : Rect S41x5632 := Rect.unit (s := S41x5632) ![0, 0] S41x5632.size inb_S41x5632_S41x5632_0_0
abbrev whole2 : Rect S1x41 := Rect.unit (s := S1x41) ![0, 0] S1x41.size inb_S1x41_S1x41_0_0
abbrev whole3 : Rect S1x2000x41 := Rect.unit (s := S1x2000x41) ![0, 0, 0] S1x2000x41.size inb_S1x2000x41_S1x2000x41_0_0_0

/-! ## What the body stores, from the stores into the scratch -/

/-- The stored block, with each window of the scratch read back from the three stores, is `OUT`: the stores leave
    the padded frames (`canon_stores`), and a window read back is those at the window's rows. -/
theorem out_of_stores (v : View sig .tc .vmem S2010x512 .bf16) (g : v.ty.Contents (Elt F))
    (X0 : Vec F S1x2000x512 .f32) (X1 : Vec F S41x5632 .f32) (X2 : Vec F S1x41 .f32) :
    k0_pay1
      (k0_pay8 (k0_pay6 X1)
        (k0_pay7 X1 (v.readCov [storeC v g X0, storeB v g X0, storeA v g X0] win10.toLoadRect)
          (v.readCov [storeC v g X0, storeB v g X0, storeA v g X0] win9.toLoadRect)
          (v.readCov [storeC v g X0, storeB v g X0, storeA v g X0] win8.toLoadRect))
        (v.readCov [storeC v g X0, storeB v g X0, storeA v g X0] win7.toLoadRect)
        (v.readCov [storeC v g X0, storeB v g X0, storeA v g X0] win6.toLoadRect)
        (v.readCov [storeC v g X0, storeB v g X0, storeA v g X0] win5.toLoadRect)
        (v.readCov [storeC v g X0, storeB v g X0, storeA v g X0] win4.toLoadRect)
        (v.readCov [storeC v g X0, storeB v g X0, storeA v g X0] win3.toLoadRect)
        (v.readCov [storeC v g X0, storeB v g X0, storeA v g X0] win2.toLoadRect)
        (v.readCov [storeC v g X0, storeB v g X0, storeA v g X0] win1.toLoadRect)
        (v.readCov [storeC v g X0, storeB v g X0, storeA v g X0] win0.toLoadRect))
      (k0_pay9 X2)
    = OUT X0 X1 X2 := by
  unfold OUT ACC
  simp only [View.readCov_eq_canon', canon_stores]

/-! ## The body's triple -/

set_option maxRecDepth 65536 in
/-- The body on whole memrefs: the three inputs' at contents reading `x0`, `x1`, `x2`, the result's and the scratch at
    anything. It runs to the continuation holding the inputs' as they were, the result's at `OUT x0 x1 x2` and the
    scratch at something. -/
theorem sound_kernel (c : Dev nD) (i : grid0.Coords)
    (arg1 : Memref sig .tc .vmem S1x2000x512 .f32) (harg1 : arg1.IsWhole)
    (arg2 : Memref sig .tc .vmem S41x5632 .f32) (harg2 : arg2.IsWhole)
    (arg3 : Memref sig .tc .vmem S1x41 .f32) (harg3 : arg3.IsWhole)
    (arg4 : Memref sig .tc .vmem S1x2000x41 .f32) (harg4 : arg4.IsWhole)
    (arg5 : Memref sig .tc .vmem S2010x512 .bf16) (harg5 : arg5.IsWhole)
    (x0 : Vec F S1x2000x512 .f32) (x1 : Vec F S41x5632 .f32) (x2 : Vec F S1x41 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (∃ g, arg5.view.loc (c : Thread nD τ) ↦[arg5.view.set]{fullShare} g)
        ∗ (iprop(owns (c : Thread nD τ) arg1 fullShare x0 ∗ owns (c : Thread nD τ) arg2 fullShare x1 ∗ owns (c : Thread nD τ) arg3 fullShare x2
            ∗ owns (c : Thread nD τ) arg4 fullShare (OUT x0 x1 x2)
            ∗ (∃ g, arg5.view.loc (c : Thread nD τ) ↦[arg5.view.set]{fullShare} g)) -∗ K ⟨⟩))
      ⊢ wp frame (wpE (defs₀ (F := F)) 𝒱₀ c none) Set.univ
          (cc0__concat_linear_kernel i arg1 harg1 arg2 harg2 arg3 harg3 arg4 harg4 arg5 harg5) K := by
  simp only [cc0__concat_linear_kernel_eq_skeleton]; unfold cc0__concat_linear_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, ⟨%g, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    -- one store through the whole block: the block reads as its payload
    have hread : ∀ w : S1x2000x41.Idx → Elt F .f32,
        arg4.view.read (Elt F) (arg4.view.writes (Elt F) f3 [⟨whole3, w⟩]) = w := fun w =>
      (View.read_writes_eq_canon _ _ _ (fun y => ⟨_, List.mem_singleton_self _, View.mem_set_unit_zero zero3 inb_S1x2000x41_S1x2000x41_0_0_0 y⟩)).trans
        (View.canon_unit_zero zero3 inb_S1x2000x41_S1x2000x41_0_0_0 w)
    refine (hread _).trans ?_
    -- the payload, with the windows read back from the three stores
    refine (out_of_stores arg5.view g (View.readAt (Elt F) arg1.view whole0.toLoadRect f0)
      (View.readAt (Elt F) arg2.view whole1.toLoadRect f1) (View.readAt (Elt F) arg3.view whole2.toLoadRect f2)).trans ?_
    -- a load of a whole input block reads the block
    have e0 : View.readAt (Elt F) arg1.view whole0.toLoadRect f0 = arg1.view.read (Elt F) f0 :=
      (View.readAt_eq_ld _ _ _).trans (View.ld_unit_zero zero3 inb_S1x2000x512_S1x2000x512_0_0_0 _)
    have e1 : View.readAt (Elt F) arg2.view whole1.toLoadRect f1 = arg2.view.read (Elt F) f1 :=
      (View.readAt_eq_ld _ _ _).trans (View.ld_unit_zero zero2 inb_S41x5632_S41x5632_0_0 _)
    have e2 : View.readAt (Elt F) arg3.view whole2.toLoadRect f2 = arg3.view.read (Elt F) f2 :=
      (View.readAt_eq_ld _ _ _).trans (View.ld_unit_zero zero2 inb_S1x41_S1x41_0_0 _)
    rw [e0, e1, e2]
  iexists _; iexact H5

/-! ## The pipeline's proof data -/

variable (m : (ℓ : Loc nD τ sig) → Buf (Elt F) ℓ) (ρ : Dev nD → PrngReg)

/-- The proof data of the one pipeline on core `c`: the arrays as the region finds them; after the body at point `t`
    each input's buffer at its block and the result's at `OUT` of the three blocks; the invariant owns the scoped
    buffers (the scratch, at anything) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 0 t) (iblk m c 1 t) (iblk m c 2 t)
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = OUT (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- The scratch as the invariant holds it and as the body's triple names it: one points-to. -/
theorem scratch_eq (c : Dev nD) (f : Buf (Elt F) ((c : Thread nD τ).loc cc0_scratch0)) :
    ((Memref.whole cc0_scratch0 : Memref sig .tc .vmem S2010x512 .bf16).view.loc (c : Thread nD τ)
        ↦[(Memref.whole cc0_scratch0 : Memref sig .tc .vmem S2010x512 .bf16).view.set]{fullShare} f : sProp 𝕄)
      = ((c : Thread nD τ).loc cc0_scratch0) ↦{fullShare} f := by
  simp only [Memref.view_whole, View.set_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, the invariant lends the scratch and takes it back,
    so the body's triple applies; what the core owes and the generator register pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, show (dats m 0 c).Φ t.castSucc = ΦA spec0 c from rfl]
  unfold ΦA
  rw [scopedRest0_eq]
  iintro ⟨⟨⟨%g, HS⟩, HR⟩, Ho, ⟨%d0, H0⟩, ⟨%d1, H1⟩, ⟨%d2, H2⟩, ⟨%d3, H3⟩⟩
  iapply (sound_kernel c (grid0.coords t) _ _ _ _ _ _ _ _ (Memref.whole cc0_scratch0) (Memref.isWhole_whole _)
    (iblk m c 0 t) (iblk m c 1 t) (iblk m c 2 t) _)
  isplitl [H0]; · iexact H0
  isplitl [H1]; · iexact H1
  isplitl [H2]; · iexact H2
  isplitl [H3]; · iexists _; iexact H3
  isplitl [HS]; · iexists g; rw [scratch_eq]; iexact HS
  iintro ⟨H0, H1, H2, H3, ⟨%g', HS⟩⟩
  isplitl [HS HR]
  · isplitl [HS]; · iexists g'; rw [← scratch_eq]; iexact HS
    iexact HR
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- From any memory with zero counters every weakly fair execution of @main terminates, and the final state has
    every array of the pipeline at what the proof data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Proof.K

end
-- ==== Proof.KI.Out.lean ====
/-
  What the kernel body leaves in its result block, as a function of its three input blocks, for any float
  instance.

  The body first fills the 2010-row scratch: rows 5 to 2004 take the batch's 2000 frames (cast to bf16), rows 0 to 4
  the first frame five times, rows 2005 to 2009 the last frame five times (`padded`). Each of the three stores is a
  read-modify-write of whole packed rows, but together they overwrite every row, so what the scratch holds afterwards
  depends on the frames alone. Channel `c` of the eleven then reads the 2000 rows starting at row `10 − c`, multiplies
  them with columns `512·c … 512·c + 511` of the weights into a zero accumulator, and the eleven products are added
  one after the other onto zero; the bias row is added last (`OUT`).
-/
import proofs.«124507_j28260884808343_1_alg».proof.Proof.Gen.KernelIdeal.Skeleton
import Idealize.ShloMosaic.Lib.Pipeline.FrameBody
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- The scratch after the three stores: the frames with the first and the last repeated five times at either end. -/
def padded (x0 : Vec F S1x2000x512 .f32) : Vec F S2010x512 .bf16 := fun y =>
  if h3 : 2005 ≤ (y 0).val then
    k0_pay5 x0 (ix2 ⟨(y 0).val - 2005, by have := idx2_lt0 y; omega⟩ ⟨(y 1).val, idx2_lt1 y⟩)
  else if h0 : (y 0).val < 5 then
    k0_pay4 x0 (ix2 ⟨(y 0).val, h0⟩ ⟨(y 1).val, idx2_lt1 y⟩)
  else
    k0_pay3 x0 (ix2 ⟨(y 0).val - 5, by have := idx2_lt0 y; omega⟩ ⟨(y 1).val, idx2_lt1 y⟩)

/-- The 2000 rows of the scratch starting at row `k`, for `k = 0 … 10`. -/
abbrev win0 : Rect S2010x512 := Rect.unit (s := S2010x512) ![0, 0] S2000x512.size inb_S2010x512_S2000x512_0_0
abbrev win1 : Rect S2010x512 := Rect.unit (s := S2010x512) ![1, 0] S2000x512.size inb_S2010x512_S2000x512_1_0
abbrev win2 : Rect S2010x512 := Rect.unit (s := S2010x512) ![2, 0] S2000x512.size inb_S2010x512_S2000x512_2_0
abbrev win3 : Rect S2010x512 := Rect.unit (s := S2010x512) ![3, 0] S2000x512.size inb_S2010x512_S2000x512_3_0
abbrev win4 : Rect S2010x512 := Rect.unit (s := S2010x512) ![4, 0] S2000x512.size inb_S2010x512_S2000x512_4_0
abbrev win5 : Rect S2010x512 := Rect.unit (s := S2010x512) ![5, 0] S2000x512.size inb_S2010x512_S2000x512_5_0
abbrev win6 : Rect S2010x512 := Rect.unit (s := S2010x512) ![6, 0] S2000x512.size inb_S2010x512_S2000x512_6_0
abbrev win7 : Rect S2010x512 := Rect.unit (s := S2010x512) ![7, 0] S2000x512.size inb_S2010x512_S2000x512_7_0
abbrev win8 : Rect S2010x512 := Rect.unit (s := S2010x512) ![8, 0] S2000x512.size inb_S2010x512_S2000x512_8_0
abbrev win9 : Rect S2010x512 := Rect.unit (s := S2010x512) ![9, 0] S2000x512.size inb_S2010x512_S2000x512_9_0
abbrev win10 : Rect S2010x512 := Rect.unit (s := S2010x512) ![10, 0] S2000x512.size inb_S2010x512_S2000x512_10_0

/-- The accumulator after all eleven channels, from the padded frames `P` and the weights. -/
def ACC (P : Vec F S2010x512 .bf16) (x1 : Vec F S41x5632 .f32) : FVec F S2000x41 .f32 :=
  k0_pay8 (k0_pay6 x1) (k0_pay7 x1 (View.ld P win10) (View.ld P win9) (View.ld P win8))
    (View.ld P win7) (View.ld P win6) (View.ld P win5) (View.ld P win4) (View.ld P win3) (View.ld P win2)
    (View.ld P win1) (View.ld P win0)

/-- What the body stores into the result block. -/
def OUT (x0 : Vec F S1x2000x512 .f32) (x1 : Vec F S41x5632 .f32) (x2 : Vec F S1x41 .f32) : Vec F S1x2000x41 .f32 :=
  k0_pay1 (ACC (padded x0) x1) (k0_pay9 x2)

end Cert.Proof.KI

end
-- ==== Proof.KI.Padded.lean ====
/-
  The scratch after the body's three stores holds the padded frames, whatever it held before.

  Each store writes whole packed rows: it reads the rows of a rectangle, replaces some of them by its payload and writes
  the rectangle back. The first covers rows 4 to 2005 and replaces rows 5 to 2004 by the frames; the second covers rows
  0 to 5 and replaces rows 0 to 4 by the first frame; the third covers rows 2004 to 2009 and replaces rows 2005 to 2009
  by the last frame. A row that a store carries over unchanged (4 and 2005 in the first, 5 in the second, 2004 in the
  third) was either written by an earlier store of the three or is written by a later one, so after the third store
  every row is a payload row: the contents are `padded` of the frames, and the prior contents have dropped out.
-/
import proofs.«124507_j28260884808343_1_alg».proof.Proof.KI.Out
import Idealize.ShloMosaic.Lib.Pipeline.Value
import Idealize.ShloMosaic.Lib.WritesUnit

noncomputable section

namespace Cert.Proof.KI

open Cert.KernelIdeal Cert.KernelIdeal.Gen
open Idealize.ShloMosaic Idealize.ShloMosaic.ValueIdx

variable {F : FTy → Type} [FloatOps F]

/-! ## Rows replaced inside a block of rows -/

section Rows
variable {α : Type} {N U C : Nat}

/-- A row the update covers reads the update. -/
theorem updateSlice_rows_hit (old : (⟨2, ![N, C]⟩ : Shape).Idx → α) (upd : (⟨2, ![U, C]⟩ : Shape).Idx → α) (s : Nat)
    (h : (⟨2, ![N, C]⟩ : Shape).Slices ![s, 0] ⟨2, ![U, C]⟩) (r : Fin N) (q : Fin C) (hr : s ≤ r.val ∧ r.val < s + U) :
    updateSlice old upd ![s, 0] h (ix2 r q) = upd (ix2 ⟨r.val - s, by omega⟩ q) := by
  unfold updateSlice
  rw [dif_pos (fun a => by
    match a with
    | ⟨0, _⟩ => exact hr
    | ⟨1, _⟩ => exact ⟨Nat.zero_le _, by show q.val < 0 + C; have := q.isLt; omega⟩)]
  refine congrArg upd (funext fun b => Fin.ext ?_)
  match b with
  | ⟨0, _⟩ => rfl
  | ⟨1, _⟩ => exact Nat.sub_zero _

/-- A row the update does not cover reads the old contents. -/
theorem updateSlice_rows_miss (old : (⟨2, ![N, C]⟩ : Shape).Idx → α) (upd : (⟨2, ![U, C]⟩ : Shape).Idx → α) (s : Nat)
    (h : (⟨2, ![N, C]⟩ : Shape).Slices ![s, 0] ⟨2, ![U, C]⟩) (r : Fin N) (q : Fin C) (hr : r.val < s ∨ s + U ≤ r.val) :
    updateSlice old upd ![s, 0] h (ix2 r q) = old (ix2 r q) := by
  unfold updateSlice
  rw [dif_neg (fun hall => by
    have h0 : s ≤ r.val ∧ r.val < s + U := hall (0 : Fin 2)
    omega)]

end Rows

/-! ## A block of whole rows of the scratch -/

section Block
variable {o W : Nat} (inb : ∀ a, (![o, 0] : Fin 2 → ℕ) a + (![W, 512] : Fin 2 → ℕ) a ≤ S2010x512.size a)

/-- Row `r − o` of the block of rows `[o, o + W)` is row `r` of the scratch. -/
theorem block_emb (r : Fin 2010) (q : Fin 512) (hr : o ≤ r.val ∧ r.val < o + W) :
    (Rect.unit (s := S2010x512) ![o, 0] ![W, 512] inb).emb (ix2 ⟨r.val - o, by omega⟩ q) = ix2 r q := by
  funext a
  refine Fin.ext ?_
  match a with
  | ⟨0, _⟩ => show o + 1 * (r.val - o) = r.val; omega
  | ⟨1, _⟩ => show 0 + 1 * q.val = q.val; omega

/-- Row `a` of the block is row `o + a` of the scratch. -/
theorem block_idx (a : Fin W) (q : Fin 512) (hlt : o + a.val < 2010) :
    (Rect.unit (s := S2010x512) ![o, 0] ![W, 512] inb).idx (ix2 a q) = ix2 ⟨o + a.val, hlt⟩ q := by
  funext b
  refine Fin.ext ?_
  match b with
  | ⟨0, _⟩ => show o + 1 * a.val = o + a.val; omega
  | ⟨1, _⟩ => show 0 + 1 * q.val = q.val; omega

theorem block_not_mem (r : Fin 2010) (q : Fin 512) (hr : r.val < o ∨ o + W ≤ r.val) :
    ix2 r q ∉ (Rect.unit (s := S2010x512) ![o, 0] ![W, 512] inb).set := by
  rw [Rect.mem_set_unit]
  intro hall
  have h0 : o ≤ r.val ∧ r.val < o + W := hall (0 : Fin 2)
  omega

variable (w : (Rect.unit (s := S2010x512) ![o, 0] ![W, 512] inb).shape.Idx → Elt F .bf16)
  (L : List (View.Piece (Elt F) S2010x512 .bf16))

/-- Under the newest block, what the list of stores leaves is the block's payload; -/
theorem canon_block_mem (r : Fin 2010) (q : Fin 512) (hr : o ≤ r.val ∧ r.val < o + W) :
    View.canon (⟨Rect.unit (s := S2010x512) ![o, 0] ![W, 512] inb, w⟩ :: L) (ix2 r q) = w (ix2 ⟨r.val - o, by omega⟩ q) := by
  rw [← block_emb inb r q hr]
  exact View.canon_cons_emb _ w L _

/-- off it, what the earlier stores left. -/
theorem canon_block_not_mem (r : Fin 2010) (q : Fin 512) (hr : r.val < o ∨ o + W ≤ r.val) :
    View.canon (⟨Rect.unit (s := S2010x512) ![o, 0] ![W, 512] inb, w⟩ :: L) (ix2 r q) = View.canon L (ix2 r q) :=
  View.canon_cons_of_not_mem _ L (block_not_mem inb r q hr)

variable (v : View sig .tc .vmem S2010x512 .bf16) (f : v.ty.Contents (Elt F))

/-- The same for the contents of a buffer after the stores. -/
theorem read_block_mem (r : Fin 2010) (q : Fin 512) (hr : o ≤ r.val ∧ r.val < o + W) :
    v.read (Elt F) (v.writes (Elt F) f (⟨Rect.unit (s := S2010x512) ![o, 0] ![W, 512] inb, w⟩ :: L)) (ix2 r q)
      = w (ix2 ⟨r.val - o, by omega⟩ q) := by
  rw [← block_emb inb r q hr]
  exact View.read_writes_cons_emb v f _ w L _

theorem read_block_not_mem (r : Fin 2010) (q : Fin 512) (hr : r.val < o ∨ o + W ≤ r.val) :
    v.read (Elt F) (v.writes (Elt F) f (⟨Rect.unit (s := S2010x512) ![o, 0] ![W, 512] inb, w⟩ :: L)) (ix2 r q)
      = v.read (Elt F) (v.writes (Elt F) f L) (ix2 r q) := by
  rw [View.writes_cons]
  exact View.read_slice_write_of_not_mem _ _ _ _ (by rw [Rect.map_emb_univ]; exact block_not_mem inb r q hr)

/-- A load of the block reads the buffer's rows `o + a`. -/
theorem readAt_block (a : Fin W) (q : Fin 512) (hlt : o + a.val < 2010) :
    v.readAt (Elt F) (Rect.unit (s := S2010x512) ![o, 0] ![W, 512] inb).toLoadRect f (ix2 a q)
      = v.read (Elt F) f (ix2 ⟨o + a.val, hlt⟩ q) := by
  rw [View.readAt_eq_ld]
  show v.read (Elt F) f ((Rect.unit (s := S2010x512) ![o, 0] ![W, 512] inb).idx (ix2 a q)) = _
  rw [block_idx inb a q hlt]

end Block

/-! ## The three stores -/

section Stores
variable (v : View sig .tc .vmem S2010x512 .bf16) (g : v.ty.Contents (Elt F)) (x0 : Vec F S1x2000x512 .f32)

/-- Rows 4 to 2005 with rows 5 to 2004 replaced by the frames. -/
def storeA : View.Piece (Elt F) S2010x512 .bf16 :=
  ⟨Rect.unit (s := S2010x512) ![4, 0] S2002x512.size inb_S2010x512_S2002x512_4_0,
    updateSlice (v.readAt (Elt F) (Rect.unit (s := S2010x512) ![4, 0] S2002x512.size inb_S2010x512_S2002x512_4_0).toLoadRect g)
      (k0_pay3 x0) ![1, 0] slices_S2002x512_S2000x512_1_0⟩

/-- Rows 0 to 5 with rows 0 to 4 replaced by the first frame. -/
def storeB : View.Piece (Elt F) S2010x512 .bf16 :=
  ⟨Rect.unit (s := S2010x512) ![0, 0] S6x512.size inb_S2010x512_S6x512_0_0,
    updateSlice (v.readAt (Elt F) (Rect.unit (s := S2010x512) ![0, 0] S6x512.size inb_S2010x512_S6x512_0_0).toLoadRect
        (v.writes (Elt F) g [storeA v g x0]))
      (k0_pay4 x0) ![0, 0] slices_S6x512_S5x512_0_0⟩

/-- Rows 2004 to 2009 with rows 2005 to 2009 replaced by the last frame. -/
def storeC : View.Piece (Elt F) S2010x512 .bf16 :=
  ⟨Rect.unit (s := S2010x512) ![2004, 0] S6x512.size inb_S2010x512_S6x512_2004_0,
    updateSlice (v.readAt (Elt F) (Rect.unit (s := S2010x512) ![2004, 0] S6x512.size inb_S2010x512_S6x512_2004_0).toLoadRect
        (v.writes (Elt F) g [storeB v g x0, storeA v g x0]))
      (k0_pay5 x0) ![1, 0] slices_S6x512_S5x512_1_0⟩

theorem padded_hi (r : Fin 2010) (q : Fin 512) (h : 2005 ≤ r.val) :
    padded x0 (ix2 r q) = k0_pay5 x0 (ix2 ⟨r.val - 2005, by omega⟩ q) := by
  unfold padded; exact dif_pos h

theorem padded_lo (r : Fin 2010) (q : Fin 512) (h : r.val < 5) :
    padded x0 (ix2 r q) = k0_pay4 x0 (ix2 ⟨r.val, h⟩ q) := by
  unfold padded; rw [dif_neg (show ¬ 2005 ≤ ((ix2 r q : S2010x512.Idx) 0).val from by show ¬ 2005 ≤ r.val; omega)]; exact dif_pos h

theorem padded_mid (r : Fin 2010) (q : Fin 512) (h : 5 ≤ r.val ∧ r.val < 2005) :
    padded x0 (ix2 r q) = k0_pay3 x0 (ix2 ⟨r.val - 5, by omega⟩ q) := by
  unfold padded
  rw [dif_neg (show ¬ 2005 ≤ ((ix2 r q : S2010x512.Idx) 0).val from by show ¬ 2005 ≤ r.val; omega),
    dif_neg (show ¬ ((ix2 r q : S2010x512.Idx) 0).val < 5 from by show ¬ r.val < 5; omega)]

/-- After the first store, rows 5 to 2004 hold the frames. -/
theorem read_afterA (r : Fin 2010) (q : Fin 512) (h : 5 ≤ r.val ∧ r.val < 2005) :
    v.read (Elt F) (v.writes (Elt F) g [storeA v g x0]) (ix2 r q) = k0_pay3 x0 (ix2 ⟨r.val - 5, by omega⟩ q) := by
  unfold storeA
  refine (read_block_mem (o := 4) (W := 2002) inb_S2010x512_S2002x512_4_0 _ [] v g r q ⟨by omega, by omega⟩).trans ?_
  refine (updateSlice_rows_hit (N := 2002) (U := 2000) (C := 512) _ (k0_pay3 x0) 1 slices_S2002x512_S2000x512_1_0
    ⟨r.val - 4, by omega⟩ q ⟨by show 1 ≤ r.val - 4; omega, by show r.val - 4 < 1 + 2000; omega⟩).trans ?_
  exact congrArg (k0_pay3 x0) (congrArg (fun a => ix2 a q) (Fin.ext (by show r.val - 4 - 1 = r.val - 5; omega)))

/-- After the second store, rows 6 to 2004 still do. -/
theorem read_afterB (r : Fin 2010) (q : Fin 512) (h : 6 ≤ r.val ∧ r.val < 2005) :
    v.read (Elt F) (v.writes (Elt F) g [storeB v g x0, storeA v g x0]) (ix2 r q) = k0_pay3 x0 (ix2 ⟨r.val - 5, by omega⟩ q) := by
  refine Eq.trans ?_ (read_afterA v g x0 r q ⟨by omega, h.2⟩)
  unfold storeB
  exact read_block_not_mem (o := 0) (W := 6) inb_S2010x512_S6x512_0_0 _ _ v g r q (Or.inr (by omega))

/-- What the three stores leave is the padded frames. -/
theorem canon_stores : View.canon [storeC v g x0, storeB v g x0, storeA v g x0] = padded x0 := by
  funext y
  obtain ⟨r, q, rfl⟩ : ∃ (r : Fin 2010) (q : Fin 512), y = ix2 r q := ⟨y 0, y 1, eq_ix2 y⟩
  by_cases h3 : 2005 ≤ r.val
  · -- a row the third store replaces
    rw [padded_hi x0 r q h3]
    unfold storeC
    refine (canon_block_mem (o := 2004) (W := 6) inb_S2010x512_S6x512_2004_0 _ _ r q ⟨by omega, by have := r.isLt; omega⟩).trans ?_
    refine (updateSlice_rows_hit (N := 6) (U := 5) (C := 512) _ (k0_pay5 x0) 1 slices_S6x512_S5x512_1_0
      ⟨r.val - 2004, by have := r.isLt; omega⟩ q ⟨by show 1 ≤ r.val - 2004; omega, by show r.val - 2004 < 1 + 5; have := r.isLt; omega⟩).trans ?_
    exact congrArg (k0_pay5 x0) (congrArg (fun a => ix2 a q) (Fin.ext (by show r.val - 2004 - 1 = r.val - 2005; omega)))
  · by_cases h4 : r.val = 2004
    · -- the row the third store carries over: the first store wrote the last frame there
      rw [padded_mid x0 r q ⟨by omega, by omega⟩]
      unfold storeC
      refine (canon_block_mem (o := 2004) (W := 6) inb_S2010x512_S6x512_2004_0 _ _ r q ⟨by omega, by omega⟩).trans ?_
      refine (updateSlice_rows_miss (N := 6) (U := 5) (C := 512) _ (k0_pay5 x0) 1 slices_S6x512_S5x512_1_0
        ⟨r.val - 2004, by omega⟩ q (Or.inl (by show r.val - 2004 < 1; omega))).trans ?_
      refine (readAt_block (o := 2004) (W := 6) inb_S2010x512_S6x512_2004_0 v _ ⟨r.val - 2004, by omega⟩ q (by show 2004 + (r.val - 2004) < 2010; omega)).trans ?_
      refine Eq.trans (congrArg (v.read (Elt F) _) (congrArg (fun a => ix2 a q) (Fin.ext (by show 2004 + (r.val - 2004) = r.val; omega)))) ?_
      exact read_afterB v g x0 r q ⟨by omega, by omega⟩
    · unfold storeC
      refine (canon_block_not_mem (o := 2004) (W := 6) inb_S2010x512_S6x512_2004_0 _ _ r q (Or.inl (by omega))).trans ?_
      by_cases h0 : r.val < 5
      · -- a row the second store replaces
        rw [padded_lo x0 r q h0]
        unfold storeB
        refine (canon_block_mem (o := 0) (W := 6) inb_S2010x512_S6x512_0_0 _ _ r q ⟨by omega, by omega⟩).trans ?_
        refine (updateSlice_rows_hit (N := 6) (U := 5) (C := 512) _ (k0_pay4 x0) 0 slices_S6x512_S5x512_0_0
          ⟨r.val - 0, by omega⟩ q ⟨by show 0 ≤ r.val - 0; omega, by show r.val - 0 < 0 + 5; omega⟩).trans ?_
        exact congrArg (k0_pay4 x0) (congrArg (fun a => ix2 a q) (Fin.ext (by show r.val - 0 - 0 = r.val; omega)))
      · rw [padded_mid x0 r q ⟨by omega, by omega⟩]
        by_cases h5 : r.val = 5
        · -- the row the second store carries over: the first store wrote the first frame there
          unfold storeB
          refine (canon_block_mem (o := 0) (W := 6) inb_S2010x512_S6x512_0_0 _ _ r q ⟨by omega, by omega⟩).trans ?_
          refine (updateSlice_rows_miss (N := 6) (U := 5) (C := 512) _ (k0_pay4 x0) 0 slices_S6x512_S5x512_0_0
            ⟨r.val - 0, by omega⟩ q (Or.inr (by show 0 + 5 ≤ r.val - 0; omega))).trans ?_
          refine (readAt_block (o := 0) (W := 6) inb_S2010x512_S6x512_0_0 v _ ⟨r.val - 0, by omega⟩ q (by show 0 + (r.val - 0) < 2010; omega)).trans ?_
          refine Eq.trans (congrArg (v.read (Elt F) _) (congrArg (fun a => ix2 a q) (Fin.ext (by show 0 + (r.val - 0) = r.val; omega)))) ?_
          exact read_afterA v g x0 r q ⟨by omega, by omega⟩
        · -- a row only the first store touches
          unfold storeB
          refine (canon_block_not_mem (o := 0) (W := 6) inb_S2010x512_S6x512_0_0 _ _ r q (Or.inr (by omega))).trans ?_
          unfold storeA
          refine (canon_block_mem (o := 4) (W := 2002) inb_S2010x512_S2002x512_4_0 _ _ r q ⟨by omega, by omega⟩).trans ?_
          refine (updateSlice_rows_hit (N := 2002) (U := 2000) (C := 512) _ (k0_pay3 x0) 1 slices_S2002x512_S2000x512_1_0
            ⟨r.val - 4, by omega⟩ q ⟨by show 1 ≤ r.val - 4; omega, by show r.val - 4 < 1 + 2000; omega⟩).trans ?_
          exact congrArg (k0_pay3 x0) (congrArg (fun a => ix2 a q) (Fin.ext (by show r.val - 4 - 1 = r.val - 5; omega)))

end Stores

end Cert.Proof.KI

end
-- ==== Proof.KI.Body.lean ====
/-
  The kernel body's triple, the pipeline's proof data and the frame run, for any float instance.

  The body reads its three input blocks (the batch's frames, the weights, the bias row), fills the scratch with the
  padded frames, reads the eleven shifted windows of it back and stores the result block. Run symbolically, the
  scratch ends as the three stores over whatever it held, and each window read back is what those stores left at the
  window's rows; by `canon_stores` that is the padded frames, so the stored block is `OUT` of the three input blocks
  (`out_of_stores`, `sound_kernel`).

  The scratch is rewritten whole at every grid point before it is read, so between points it is held at anything: the
  invariant is the one that only owns the scoped buffers. The proof data name each input window's buffer after the body
  as its block and the result window's as `OUT` of the three blocks at that point; the launch theorem then gives the run
  of @main with every argument array unchanged and the result array assembled from the sixteen blocks.
-/
import proofs.«124507_j28260884808343_1_alg».proof.Proof.KI.Padded
import proofs.«124507_j28260884808343_1_alg».proof.Proof.Gen.KernelIdeal.Skeleton
import proofs.«124507_j28260884808343_1_alg».proof.Proof.Gen.KernelIdeal.Frame
import Idealize.ShloMosaic.Lib.Pipeline.Value

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- No variant is used: the body has no counted loop. -/
abbrev 𝒱₀ : Variants := Variants.none

/-! ## Whole-buffer rectangles -/

theorem zero3 : (![0, 0, 0] : Fin 3 → ℕ) = fun _ => 0 := funext fun a => by fin_cases a <;> rfl
theorem zero2 : (![0, 0] : Fin 2 → ℕ) = fun _ => 0 := funext fun a => by fin_cases a <;> rfl

abbrev whole0 : Rect S1x2000x512 := Rect.unit (s := S1x2000x512) ![0, 0, 0] S1x2000x512.size inb_S1x2000x512_S1x2000x512_0_0_0
abbrev whole1 : Rect S41x5632 := Rect.unit (s := S41x5632) ![0, 0] S41x5632.size inb_S41x5632_S41x5632_0_0
abbrev whole2 : Rect S1x41 := Rect.unit (s := S1x41) ![0, 0] S1x41.size inb_S1x41_S1x41_0_0
abbrev whole3 : Rect S1x2000x41 := Rect.unit (s := S1x2000x41) ![0, 0, 0] S1x2000x41.size inb_S1x2000x41_S1x2000x41_0_0_0

/-! ## What the body stores, from the stores into the scratch -/

/-- The stored block, with each window of the scratch read back from the three stores, is `OUT`: the stores leave
    the padded frames (`canon_stores`), and a window read back is those at the window's rows. -/
theorem out_of_stores (v : View sig .tc .vmem S2010x512 .bf16) (g : v.ty.Contents (Elt F))
    (X0 : Vec F S1x2000x512 .f32) (X1 : Vec F S41x5632 .f32) (X2 : Vec F S1x41 .f32) :
    k0_pay1
      (k0_pay8 (k0_pay6 X1)
        (k0_pay7 X1 (v.readCov [storeC v g X0, storeB v g X0, storeA v g X0] win10.toLoadRect)
          (v.readCov [storeC v g X0, storeB v g X0, storeA v g X0] win9.toLoadRect)
          (v.readCov [storeC v g X0, storeB v g X0, storeA v g X0] win8.toLoadRect))
        (v.readCov [storeC v g X0, storeB v g X0, storeA v g X0] win7.toLoadRect)
        (v.readCov [storeC v g X0, storeB v g X0, storeA v g X0] win6.toLoadRect)
        (v.readCov [storeC v g X0, storeB v g X0, storeA v g X0] win5.toLoadRect)
        (v.readCov [storeC v g X0, storeB v g X0, storeA v g X0] win4.toLoadRect)
        (v.readCov [storeC v g X0, storeB v g X0, storeA v g X0] win3.toLoadRect)
        (v.readCov [storeC v g X0, storeB v g X0, storeA v g X0] win2.toLoadRect)
        (v.readCov [storeC v g X0, storeB v g X0, storeA v g X0] win1.toLoadRect)
        (v.readCov [storeC v g X0, storeB v g X0, storeA v g X0] win0.toLoadRect))
      (k0_pay9 X2)
    = OUT X0 X1 X2 := by
  unfold OUT ACC
  simp only [View.readCov_eq_canon', canon_stores]

/-! ## The body's triple -/

set_option maxRecDepth 65536 in
/-- The body on whole memrefs: the three inputs' at contents reading `x0`, `x1`, `x2`, the result's and the scratch at
    anything. It runs to the continuation holding the inputs' as they were, the result's at `OUT x0 x1 x2` and the
    scratch at something. -/
theorem sound_kernel (c : Dev nD) (i : grid0.Coords)
    (arg1 : Memref sig .tc .vmem S1x2000x512 .f32) (harg1 : arg1.IsWhole)
    (arg2 : Memref sig .tc .vmem S41x5632 .f32) (harg2 : arg2.IsWhole)
    (arg3 : Memref sig .tc .vmem S1x41 .f32) (harg3 : arg3.IsWhole)
    (arg4 : Memref sig .tc .vmem S1x2000x41 .f32) (harg4 : arg4.IsWhole)
    (arg5 : Memref sig .tc .vmem S2010x512 .bf16) (harg5 : arg5.IsWhole)
    (x0 : Vec F S1x2000x512 .f32) (x1 : Vec F S41x5632 .f32) (x2 : Vec F S1x41 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (∃ g, arg5.view.loc (c : Thread nD τ) ↦[arg5.view.set]{fullShare} g)
        ∗ (iprop(owns (c : Thread nD τ) arg1 fullShare x0 ∗ owns (c : Thread nD τ) arg2 fullShare x1 ∗ owns (c : Thread nD τ) arg3 fullShare x2
            ∗ owns (c : Thread nD τ) arg4 fullShare (OUT x0 x1 x2)
            ∗ (∃ g, arg5.view.loc (c : Thread nD τ) ↦[arg5.view.set]{fullShare} g)) -∗ K ⟨⟩))
      ⊢ wp frame (wpE (defs₀ (F := F)) 𝒱₀ c none) Set.univ
          (cc0__concat_linear_kernel i arg1 harg1 arg2 harg2 arg3 harg3 arg4 harg4 arg5 harg5) K := by
  simp only [cc0__concat_linear_kernel_eq_skeleton]; unfold cc0__concat_linear_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, ⟨%g, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    -- one store through the whole block: the block reads as its payload
    have hread : ∀ w : S1x2000x41.Idx → Elt F .f32,
        arg4.view.read (Elt F) (arg4.view.writes (Elt F) f3 [⟨whole3, w⟩]) = w := fun w =>
      (View.read_writes_eq_canon _ _ _ (fun y => ⟨_, List.mem_singleton_self _, View.mem_set_unit_zero zero3 inb_S1x2000x41_S1x2000x41_0_0_0 y⟩)).trans
        (View.canon_unit_zero zero3 inb_S1x2000x41_S1x2000x41_0_0_0 w)
    refine (hread _).trans ?_
    -- the payload, with the windows read back from the three stores
    refine (out_of_stores arg5.view g (View.readAt (Elt F) arg1.view whole0.toLoadRect f0)
      (View.readAt (Elt F) arg2.view whole1.toLoadRect f1) (View.readAt (Elt F) arg3.view whole2.toLoadRect f2)).trans ?_
    -- a load of a whole input block reads the block
    have e0 : View.readAt (Elt F) arg1.view whole0.toLoadRect f0 = arg1.view.read (Elt F) f0 :=
      (View.readAt_eq_ld _ _ _).trans (View.ld_unit_zero zero3 inb_S1x2000x512_S1x2000x512_0_0_0 _)
    have e1 : View.readAt (Elt F) arg2.view whole1.toLoadRect f1 = arg2.view.read (Elt F) f1 :=
      (View.readAt_eq_ld _ _ _).trans (View.ld_unit_zero zero2 inb_S41x5632_S41x5632_0_0 _)
    have e2 : View.readAt (Elt F) arg3.view whole2.toLoadRect f2 = arg3.view.read (Elt F) f2 :=
      (View.readAt_eq_ld _ _ _).trans (View.ld_unit_zero zero2 inb_S1x41_S1x41_0_0 _)
    rw [e0, e1, e2]
  iexists _; iexact H5

/-! ## The pipeline's proof data -/

variable (m : (ℓ : Loc nD τ sig) → Buf (Elt F) ℓ) (ρ : Dev nD → PrngReg)

/-- The proof data of the one pipeline on core `c`: the arrays as the region finds them; after the body at point `t`
    each input's buffer at its block and the result's at `OUT` of the three blocks; the invariant owns the scoped
    buffers (the scratch, at anything) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 0 t) (iblk m c 1 t) (iblk m c 2 t)
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = OUT (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- The scratch as the invariant holds it and as the body's triple names it: one points-to. -/
theorem scratch_eq (c : Dev nD) (f : Buf (Elt F) ((c : Thread nD τ).loc cc0_scratch0)) :
    ((Memref.whole cc0_scratch0 : Memref sig .tc .vmem S2010x512 .bf16).view.loc (c : Thread nD τ)
        ↦[(Memref.whole cc0_scratch0 : Memref sig .tc .vmem S2010x512 .bf16).view.set]{fullShare} f : sProp 𝕄)
      = ((c : Thread nD τ).loc cc0_scratch0) ↦{fullShare} f := by
  simp only [Memref.view_whole, View.set_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, the invariant lends the scratch and takes it back,
    so the body's triple applies; what the core owes and the generator register pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, show (dats m 0 c).Φ t.castSucc = ΦA spec0 c from rfl]
  unfold ΦA
  rw [scopedRest0_eq]
  iintro ⟨⟨⟨%g, HS⟩, HR⟩, Ho, ⟨%d0, H0⟩, ⟨%d1, H1⟩, ⟨%d2, H2⟩, ⟨%d3, H3⟩⟩
  iapply (sound_kernel c (grid0.coords t) _ _ _ _ _ _ _ _ (Memref.whole cc0_scratch0) (Memref.isWhole_whole _)
    (iblk m c 0 t) (iblk m c 1 t) (iblk m c 2 t) _)
  isplitl [H0]; · iexact H0
  isplitl [H1]; · iexact H1
  isplitl [H2]; · iexact H2
  isplitl [H3]; · iexists _; iexact H3
  isplitl [HS]; · iexists g; rw [scratch_eq]; iexact HS
  iintro ⟨H0, H1, H2, H3, ⟨%g', HS⟩⟩
  isplitl [HS HR]
  · isplitl [HS]; · iexists g'; rw [← scratch_eq]; iexact HS
    iexact HR
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- From any memory with zero counters every weakly fair execution of @main terminates, and the final state has
    every array of the pipeline at what the proof data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Proof.KI

end
-- ==== Proof.Spec.lean ====
/-
  The specification both programs meet, stated over literal shapes and importing no program.

  For a batch `b`, an output frame `t` and a class `o` the result is

      Σ_{c < 11} Σ_{d < 512} x[b, srcRow t c, d] · W[o, 512·c + d]  +  bias[o]

  where `srcRow t c = clamp (t + 5 − c) 0 1999`: channel `c` of the concatenated feature vector of frame `t` is
  the frame `5 − c` steps away, the sequence continued past either end by its first and its last frame.
  Over the naturals the truncated subtraction is the clamp at zero, so `srcRow t c = min (t + 5 − c) 1999`.

  Also here, because they mention no program: a sum over the 5632 concatenated columns is the double sum over
  channel and feature (`sum_split`), and a sum over eleven channels written out term by term from the left, starting
  at zero (`sum11_left`): the two groupings the two programs use. Both hold in any commutative additive monoid, so
  on the extended reals no finiteness is asked.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Proof.Spec

open Idealize.ShloMosaic Idealize.ShloMosaic.ValueIdx

/-- The frame that output frame `t` reads in channel `c`: `t + 5 − c` clamped into `[0, 1999]`. -/
def srcRow (t : Fin 2000) (c : Fin 11) : Fin 2000 := ⟨min (t.val + 5 - c.val) 1999, by omega⟩

theorem srcRow_val (t : Fin 2000) (c : Fin 11) : (srcRow t c).val = min (t.val + 5 - c.val) 1999 := rfl

/-- Column `512·c + d` of the weight matrix: feature `d` of channel `c`. -/
def wcol (c : Fin 11) (d : Fin 512) : Fin 5632 := ⟨512 * c.val + d.val, by omega⟩

theorem wcol_val (c : Fin 11) (d : Fin 512) : (wcol c d).val = 512 * c.val + d.val := rfl

/-- The result at batch `b`, frame `t`, class `o`. -/
def Gat (x : (⟨3, ![16, 2000, 512]⟩ : Shape).Idx → EReal) (W : (⟨2, ![41, 5632]⟩ : Shape).Idx → EReal)
    (bias : (⟨1, ![41]⟩ : Shape).Idx → EReal) (b : Fin 16) (t : Fin 2000) (o : Fin 41) : EReal :=
  (∑ c : Fin 11, ∑ d : Fin 512, x (ix3 b (srcRow t c) d) * W (ix2 o (wcol c d))) + bias (ix1 o)

/-- The result as one function of the three argument arrays. -/
def G (x : (⟨3, ![16, 2000, 512]⟩ : Shape).Idx → EReal) (W : (⟨2, ![41, 5632]⟩ : Shape).Idx → EReal)
    (bias : (⟨1, ![41]⟩ : Shape).Idx → EReal) : (⟨3, ![16, 2000, 41]⟩ : Shape).Idx → EReal :=
  fun i => Gat x W bias (i 0) (i 1) (i 2)

theorem G_ix3 (x : (⟨3, ![16, 2000, 512]⟩ : Shape).Idx → EReal) (W : (⟨2, ![41, 5632]⟩ : Shape).Idx → EReal)
    (bias : (⟨1, ![41]⟩ : Shape).Idx → EReal) (b : Fin 16) (t : Fin 2000) (o : Fin 41) :
    G x W bias (ix3 b t o) = Gat x W bias b t o := rfl

/-- A sum over the 5632 concatenated columns, channel by channel. -/
theorem sum_split {M : Type*} [AddCommMonoid M] (f : Fin 5632 → M) :
    ∑ k : Fin 5632, f k = ∑ c : Fin 11, ∑ d : Fin 512, f (wcol c d) := by
  show ∑ k : Fin (11 * 512), f k = _
  rw [← (finProdFinEquiv (m := 11) (n := 512)).sum_comp, Fintype.sum_prod_type]
  refine Finset.sum_congr rfl fun c _ => Finset.sum_congr rfl fun d _ => congrArg f (Fin.ext ?_)
  show d.val + 512 * c.val = 512 * c.val + d.val
  omega

/-- Eleven terms added one after the other onto zero are their sum. -/
theorem sum11_left {M : Type*} [AddCommMonoid M] (m : Fin 11 → M) :
    0 + m 0 + m 1 + m 2 + m 3 + m 4 + m 5 + m 6 + m 7 + m 8 + m 9 + m 10 = ∑ c : Fin 11, m c := by
  rw [zero_add]
  simp only [Fin.sum_univ_succ, Fin.sum_univ_zero, add_zero, add_assoc]
  rfl

end Cert.Proof.Spec

end
-- ==== Proof.KI.OutAt.lean ====
/-
  What the kernel body leaves in its result block, read at one frame `t` and one class `o`, on the extended reals.

  Row `j` of the 2010-row scratch is frame `min (j − 5) 1999` (truncated subtraction): rows 0 to 4 repeat frame 0, rows 5
  to 2004 are the frames, rows 2005 to 2009 repeat frame 1999 (`padded_apply`). Row `t` of the window that starts at row
  `k` is row `k + t` of the scratch (`ld_win_apply`); columns `512·c … 512·c + 511` of the weights are channel `c`'s
  features (`wslice_apply`); a product into the zero accumulator is the sum over the 512 features of the two rows'
  products (`mm_apply`). Channel `c` reads the window from row `10 − c`, so at frame `t` it reads frame
  `min ((10 − c) + t − 5) 1999 = min (t + 5 − c) 1999` (`chanProd_apply`). The eleven products are added one after the
  other onto zero, which is their sum (`Spec.sum11_left`), and the bias of class `o` is added last (`OUT_apply`).
  On the extended reals every operation is the exact one and the narrowing to sixteen bits is the identity, and addition
  is commutative and associative there, so no finiteness is asked.
-/
import proofs.«124507_j28260884808343_1_alg».proof.Proof.KI.Out
import proofs.«124507_j28260884808343_1_alg».proof.Proof.Spec
import Idealize.ShloMosaic.PureOps.Ideal.Laws
import Idealize.ShloMosaic.Lib.Pipeline.Value
import Idealize.ShloMosaic.Lib.ValueLayout

noncomputable section

open scoped BigOperators

namespace Cert.Proof.KI

open Cert.KernelIdeal Cert.KernelIdeal.Gen Cert.Proof.Spec
open Idealize.ShloMosaic Idealize.ShloMosaic.ValueIdx

/-! ## The scratch at an index -/

/-- The frames viewed as 2000 rows: row `r`, feature `d` is the batch's frame `r` (the narrowing is exact here). -/
theorem pay2_apply (x0 : Vec Ideal S1x2000x512 .f32) (r : Fin 2000) (d : Fin 512) :
    k0_pay2 (F := Ideal) x0 (ix2 r d) = x0 (ix3 (0 : Fin 1) r d) := by
  unfold k0_pay2
  exact shapeCast_1ab_ab_apply x0 shapeCasts_S1x2000x512_S2000x512 r d

/-- The middle store's value is the frames themselves. -/
theorem pay3_apply (x0 : Vec Ideal S1x2000x512 .f32) (r : Fin 2000) (d : Fin 512) :
    k0_pay3 (F := Ideal) x0 (ix2 r d) = x0 (ix3 (0 : Fin 1) r d) := by
  unfold k0_pay3
  rw [shapeCast_self]
  exact pay2_apply x0 r d

/-- The first store's value: every one of its five rows is frame 0. -/
theorem pay4_apply (x0 : Vec Ideal S1x2000x512 .f32) (r : Fin 5) (d : Fin 512) :
    k0_pay4 (F := Ideal) x0 (ix2 r d) = x0 (ix3 (0 : Fin 1) (0 : Fin 2000) d) := by
  unfold k0_pay4
  rw [shapeCast_self, shapeCast_self]
  refine (broadcastTo_1b_ab_apply _ broadcasts_S1x512_S5x512 r d).trans ?_
  refine (slice2_axis0_apply 0 _ slices_S2000x512_o0_0_S1x512 (0 : Fin 1) d (0 : Fin 2000) rfl).trans ?_
  exact pay2_apply x0 0 d

/-- The last store's value: every one of its five rows is frame 1999. -/
theorem pay5_apply (x0 : Vec Ideal S1x2000x512 .f32) (r : Fin 5) (d : Fin 512) :
    k0_pay5 (F := Ideal) x0 (ix2 r d) = x0 (ix3 (0 : Fin 1) (⟨1999, by omega⟩ : Fin 2000) d) := by
  unfold k0_pay5
  rw [shapeCast_self, shapeCast_self]
  refine (broadcastTo_1b_ab_apply _ broadcasts_S1x512_S5x512 r d).trans ?_
  refine (slice2_axis0_apply 1999 _ slices_S2000x512_o1999_0_S1x512 (0 : Fin 1) d (⟨1999, by omega⟩ : Fin 2000) rfl).trans ?_
  exact pay2_apply x0 _ d

/-- Row `j` of the scratch is frame `j − 5` clamped into `[0, 1999]`. -/
theorem padded_apply (x0 : Vec Ideal S1x2000x512 .f32) (j : Fin 2010) (d : Fin 512) :
    padded (F := Ideal) x0 (ix2 j d) = x0 (ix3 (0 : Fin 1) (⟨min (j.val - 5) 1999, by omega⟩ : Fin 2000) d) := by
  unfold padded
  by_cases h3 : 2005 ≤ j.val
  · rw [dif_pos (show 2005 ≤ ((ix2 j d) 0).val from h3)]
    refine (pay5_apply x0 _ _).trans ?_
    congr 2
    exact Fin.ext (by show 1999 = min (j.val - 5) 1999; omega)
  · rw [dif_neg (show ¬ 2005 ≤ ((ix2 j d) 0).val from h3)]
    by_cases h0 : j.val < 5
    · rw [dif_pos (show ((ix2 j d) 0).val < 5 from h0)]
      refine (pay4_apply x0 _ _).trans ?_
      congr 2
      exact Fin.ext (by show 0 = min (j.val - 5) 1999; omega)
    · rw [dif_neg (show ¬ ((ix2 j d) 0).val < 5 from h0)]
      refine (pay3_apply x0 _ _).trans ?_
      congr 2
      exact Fin.ext (by show j.val - 5 = min (j.val - 5) 1999; omega)

/-! ## A window of the scratch, the weights' slice, one product -/

/-- The 2000 rows from row `k`: row `t` of the window is row `k + t` of the scratch. -/
theorem ld_win_apply (P : Vec Ideal S2010x512 .bf16) (k : Nat)
    (inb : ∀ a, (![k, 0] : Fin 2 → Nat) a + S2000x512.size a ≤ S2010x512.size a) (t : Fin 2000) (d : Fin 512) :
    View.ld P (Rect.unit (s := S2010x512) ![k, 0] S2000x512.size inb) (ix2 t d)
      = P (ix2 (⟨k + t.val, Nat.lt_of_lt_of_le (Nat.add_lt_add_left t.isLt k) (inb 0)⟩ : Fin 2010) d) := by
  show P _ = P _
  refine congrArg P (funext fun a => Fin.ext ?_)
  match a with
  | ⟨0, _⟩ => show k + 1 * t.val = k + t.val; omega
  | ⟨1, _⟩ => show 0 + 1 * d.val = d.val; omega

/-- Columns `o … o + 511` of the weights (narrowed exactly), where `o = 512·c`: class `r`, feature `d` of channel `c`. -/
theorem wslice_apply (x1 : Vec Ideal S41x5632 .f32) (o : Nat) (h : S41x5632.Slices ![0, o] S41x512) (c : Fin 11)
    (ho : o = 512 * c.val) (r : Fin 41) (d : Fin 512) :
    extractStridedSlice S41x512 ![0, o] (k0_pay6 (F := Ideal) x1) h (ix2 r d) = x1 (ix2 r (wcol c d)) := by
  refine (slice2_axis1_apply o _ h r d (wcol c d) (by rw [wcol_val, ho])).trans ?_
  rfl

/-- The left operand's index: its row is the result's row … -/
theorem lhs_mm_0 (i : S2000x41.Idx) (q : dot_S2000x512_S41x512_S2000x41_1_1_0_0_n_n.contr.Idx) :
    (dot_S2000x512_S41x512_S2000x41_1_1_0_0_n_n.lhsIdx i q 0).val = (i 0).val := by
  unfold DotDims.lhsIdx
  rw [dif_neg (show ¬(0 : Fin S2000x512.rank) ∈ dot_S2000x512_S41x512_S2000x41_1_1_0_0_n_n.lhsBatch by decide),
    dif_pos (show (0 : Fin S2000x512.rank) ∈ dot_S2000x512_S41x512_S2000x41_1_1_0_0_n_n.lhsNonContracting by decide)]
  rfl

/-- … and its column is the contraction's one coordinate. -/
theorem lhs_mm_1 (i : S2000x41.Idx) (q : dot_S2000x512_S41x512_S2000x41_1_1_0_0_n_n.contr.Idx) :
    (dot_S2000x512_S41x512_S2000x41_1_1_0_0_n_n.lhsIdx i q 1).val = (q ⟨0, by decide⟩).val :=
  dot_S2000x512_S41x512_S2000x41_1_1_0_0_n_n.lhsIdx_val_of_single rfl i q

/-- The right operand's index: its row is the result's column … -/
theorem rhs_mm_0 (i : S2000x41.Idx) (q : dot_S2000x512_S41x512_S2000x41_1_1_0_0_n_n.contr.Idx) :
    (dot_S2000x512_S41x512_S2000x41_1_1_0_0_n_n.rhsIdx i q 0).val = (i 1).val := by
  unfold DotDims.rhsIdx
  rw [dif_neg (show ¬(0 : Fin S41x512.rank) ∈ dot_S2000x512_S41x512_S2000x41_1_1_0_0_n_n.rhsBatch by decide),
    dif_pos (show (0 : Fin S41x512.rank) ∈ dot_S2000x512_S41x512_S2000x41_1_1_0_0_n_n.rhsNonContracting by decide)]
  rfl

/-- … and its column is the contraction's one coordinate. -/
theorem rhs_mm_1 (i : S2000x41.Idx) (q : dot_S2000x512_S41x512_S2000x41_1_1_0_0_n_n.contr.Idx) :
    (dot_S2000x512_S41x512_S2000x41_1_1_0_0_n_n.rhsIdx i q 1).val = (q ⟨0, by decide⟩).val :=
  dot_S2000x512_S41x512_S2000x41_1_1_0_0_n_n.rhsIdx_val_of_single rfl i q

/-- One product into the zero accumulator: row `t` of the left operand against row `o` of the right one, both along
    their second axis. -/
theorem mm_apply (A : FVec Ideal S2000x512 .bf16) (B : FVec Ideal S41x512 .bf16) (t : Fin 2000) (o : Fin 41) :
    matmul (F := Ideal) dot_S2000x512_S41x512_S2000x41_1_1_0_0_n_n none A B (constant (F := Ideal) S2000x41 .f32 0x00000000#32) (ix2 t o)
      = ∑ d : Fin 512, A (ix2 t d) * B (ix2 o d) := by
  refine (Ideal.matmul_constant_zero_apply dot_S2000x512_S41x512_S2000x41_1_1_0_0_n_n none A B (ix2 t o)).trans ?_
  rw [← Equiv.sum_comp (ValueIdx.contrEquiv1 dot_S2000x512_S41x512_S2000x41_1_1_0_0_n_n 512 rfl rfl).symm]
  refine Finset.sum_congr rfl fun k _ => ?_
  have hk := ValueIdx.contrEquiv1_symm_val dot_S2000x512_S41x512_S2000x41_1_1_0_0_n_n 512 rfl rfl k
  have el : dot_S2000x512_S41x512_S2000x41_1_1_0_0_n_n.lhsIdx (ix2 t o)
      ((ValueIdx.contrEquiv1 dot_S2000x512_S41x512_S2000x41_1_1_0_0_n_n 512 rfl rfl).symm k) = ix2 t k :=
    funext fun a => Fin.ext (by
      match a with
      | ⟨0, _⟩ => exact lhs_mm_0 _ _
      | ⟨1, _⟩ => exact (lhs_mm_1 _ _).trans hk)
  have er : dot_S2000x512_S41x512_S2000x41_1_1_0_0_n_n.rhsIdx (ix2 t o)
      ((ValueIdx.contrEquiv1 dot_S2000x512_S41x512_S2000x41_1_1_0_0_n_n 512 rfl rfl).symm k) = ix2 o k :=
    funext fun a => Fin.ext (by
      match a with
      | ⟨0, _⟩ => exact rhs_mm_0 _ _
      | ⟨1, _⟩ => exact (rhs_mm_1 _ _).trans hk)
  rw [el, er]

/-! ## The accumulator and the result -/

/-- One channel's product as a block: the window of the scratch from row `k` against columns `o … o + 511` of the
    weights, into the zero accumulator. -/
abbrev chanProd (P : Vec Ideal S2010x512 .bf16) (x1 : Vec Ideal S41x5632 .f32) (k : Nat)
    (inb : ∀ a, (![k, 0] : Fin 2 → Nat) a + S2000x512.size a ≤ S2010x512.size a) (o : Nat)
    (h : S41x5632.Slices ![0, o] S41x512) : FVec Ideal S2000x41 .f32 :=
  matmul (F := Ideal) (φ₁ := .bf16) (φ₂ := .bf16) dot_S2000x512_S41x512_S2000x41_1_1_0_0_n_n none (View.ld P (Rect.unit (s := S2010x512) ![k, 0] S2000x512.size inb))
    (extractStridedSlice S41x512 ![0, o] (k0_pay6 (F := Ideal) x1) h) (constant (F := Ideal) S2000x41 .f32 0x00000000#32)

/-- Channel `c` reads the window from row `10 − c` and the weights from column `512·c`; at frame `t`, class `r` its
    product is the sum over the features of frame `srcRow t c` times the weight: row `(10 − c) + t` of the scratch is
    frame `(10 − c) + t − 5` clamped, and `min ((10 − c) + t − 5) 1999 = min (t + 5 − c) 1999` for `c ≤ 10`. -/
theorem chanProd_apply (x0 : Vec Ideal S1x2000x512 .f32) (x1 : Vec Ideal S41x5632 .f32) (k : Nat)
    (inb : ∀ a, (![k, 0] : Fin 2 → Nat) a + S2000x512.size a ≤ S2010x512.size a) (o : Nat)
    (h : S41x5632.Slices ![0, o] S41x512) (c : Fin 11) (hk : k + c.val = 10) (ho : o = 512 * c.val)
    (t : Fin 2000) (r : Fin 41) :
    chanProd (padded (F := Ideal) x0) x1 k inb o h (ix2 t r)
      = ∑ d : Fin 512, (x0 (ix3 (0 : Fin 1) (srcRow t c) d) : EReal) * (x1 (ix2 r (wcol c d)) : EReal) := by
  refine (mm_apply _ _ t r).trans ?_
  refine Finset.sum_congr rfl fun d _ => ?_
  have e1 := ld_win_apply (padded (F := Ideal) x0) k inb t d
  have e3 := wslice_apply x1 o h c ho r d
  rw [e1, e3, padded_apply]
  have hr : ∀ (hlt : min (k + t.val - 5) 1999 < 2000), (⟨min (k + t.val - 5) 1999, hlt⟩ : Fin 2000) = srcRow t c :=
    fun _ => Fin.ext (by rw [srcRow_val]; show min (k + t.val - 5) 1999 = min (t.val + 5 - c.val) 1999; omega)
  exact congrArg (fun s => (x0 (ix3 (0 : Fin 1) s d) : EReal) * (x1 (ix2 r (wcol c d)) : EReal)) (hr _)

/-- The accumulator at frame `t`, class `o`: the eleven products added one after the other onto the zero word. -/
theorem ACC_apply (P : Vec Ideal S2010x512 .bf16) (x1 : Vec Ideal S41x5632 .f32) (t : Fin 2000) (o : Fin 41) :
    (ACC (F := Ideal) P x1 (ix2 t o) : EReal)
      = (Ideal.ofBits .f32 0x00000000#32 : EReal)
        + chanProd P x1 10 inb_S2010x512_S2000x512_10_0 0 slices_S41x5632_o0_0_S41x512 (ix2 t o)
        + chanProd P x1 9 inb_S2010x512_S2000x512_9_0 512 slices_S41x5632_o0_512_S41x512 (ix2 t o)
        + chanProd P x1 8 inb_S2010x512_S2000x512_8_0 1024 slices_S41x5632_o0_1024_S41x512 (ix2 t o)
        + chanProd P x1 7 inb_S2010x512_S2000x512_7_0 1536 slices_S41x5632_o0_1536_S41x512 (ix2 t o)
        + chanProd P x1 6 inb_S2010x512_S2000x512_6_0 2048 slices_S41x5632_o0_2048_S41x512 (ix2 t o)
        + chanProd P x1 5 inb_S2010x512_S2000x512_5_0 2560 slices_S41x5632_o0_2560_S41x512 (ix2 t o)
        + chanProd P x1 4 inb_S2010x512_S2000x512_4_0 3072 slices_S41x5632_o0_3072_S41x512 (ix2 t o)
        + chanProd P x1 3 inb_S2010x512_S2000x512_3_0 3584 slices_S41x5632_o0_3584_S41x512 (ix2 t o)
        + chanProd P x1 2 inb_S2010x512_S2000x512_2_0 4096 slices_S41x5632_o0_4096_S41x512 (ix2 t o)
        + chanProd P x1 1 inb_S2010x512_S2000x512_1_0 4608 slices_S41x5632_o0_4608_S41x512 (ix2 t o)
        + chanProd P x1 0 inb_S2010x512_S2000x512_0_0 5120 slices_S41x5632_o0_5120_S41x512 (ix2 t o) := rfl

/-- The bias row broadcast over the frames. -/
theorem pay9_apply (x2 : Vec Ideal S1x41 .f32) (t : Fin 2000) (o : Fin 41) :
    k0_pay9 (F := Ideal) x2 (ix2 t o) = x2 (ix2 (0 : Fin 1) o) := by
  unfold k0_pay9
  refine (broadcastTo_1b_ab_apply _ broadcasts_S1x41_S2000x41 t o).trans ?_
  refine (shapeCast_a_1a_apply _ shapeCasts_S41_S1x41 (0 : Fin 1) o).trans ?_
  exact shapeCast_1a_a_apply x2 shapeCasts_S1x41_S41 o

/-- The result block at frame `t`, class `o`, on the extended reals: the double sum over channel and feature of the
    clamped frame times the weight, plus the bias. -/
theorem OUT_apply (x0 : Vec Ideal S1x2000x512 .f32) (x1 : Vec Ideal S41x5632 .f32) (x2 : Vec Ideal S1x41 .f32)
    (t : Fin 2000) (o : Fin 41) :
    (OUT (F := Ideal) x0 x1 x2 (ix3 (0 : Fin 1) t o) : EReal)
      = (∑ c : Fin 11, ∑ d : Fin 512, (x0 (ix3 (0 : Fin 1) (srcRow t c) d) : EReal) * (x1 (ix2 o (wcol c d)) : EReal))
        + (x2 (ix2 (0 : Fin 1) o) : EReal) := by
  unfold OUT k0_pay1
  refine (shapeCast_ab_1ab_apply _ shapeCasts_S2000x41_S1x2000x41 (0 : Fin 1) t o).trans ?_
  rw [addf_apply, pay9_apply, ACC_apply, Ideal.ofBits_zero_f32,
    chanProd_apply x0 x1 10 inb_S2010x512_S2000x512_10_0 0 slices_S41x5632_o0_0_S41x512 (0 : Fin 11) rfl rfl t o,
    chanProd_apply x0 x1 9 inb_S2010x512_S2000x512_9_0 512 slices_S41x5632_o0_512_S41x512 (1 : Fin 11) rfl rfl t o,
    chanProd_apply x0 x1 8 inb_S2010x512_S2000x512_8_0 1024 slices_S41x5632_o0_1024_S41x512 (2 : Fin 11) rfl rfl t o,
    chanProd_apply x0 x1 7 inb_S2010x512_S2000x512_7_0 1536 slices_S41x5632_o0_1536_S41x512 (3 : Fin 11) rfl rfl t o,
    chanProd_apply x0 x1 6 inb_S2010x512_S2000x512_6_0 2048 slices_S41x5632_o0_2048_S41x512 (4 : Fin 11) rfl rfl t o,
    chanProd_apply x0 x1 5 inb_S2010x512_S2000x512_5_0 2560 slices_S41x5632_o0_2560_S41x512 (5 : Fin 11) rfl rfl t o,
    chanProd_apply x0 x1 4 inb_S2010x512_S2000x512_4_0 3072 slices_S41x5632_o0_3072_S41x512 (6 : Fin 11) rfl rfl t o,
    chanProd_apply x0 x1 3 inb_S2010x512_S2000x512_3_0 3584 slices_S41x5632_o0_3584_S41x512 (7 : Fin 11) rfl rfl t o,
    chanProd_apply x0 x1 2 inb_S2010x512_S2000x512_2_0 4096 slices_S41x5632_o0_4096_S41x512 (8 : Fin 11) rfl rfl t o,
    chanProd_apply x0 x1 1 inb_S2010x512_S2000x512_1_0 4608 slices_S41x5632_o0_4608_S41x512 (9 : Fin 11) rfl rfl t o,
    chanProd_apply x0 x1 0 inb_S2010x512_S2000x512_0_0 5120 slices_S41x5632_o0_5120_S41x512 (10 : Fin 11) rfl rfl t o]
  exact congrArg (· + (x2 (ix2 (0 : Fin 1) o) : EReal))
    (sum11_left fun c : Fin 11 => ∑ d : Fin 512, (x0 (ix3 (0 : Fin 1) (srcRow t c) d) : EReal) * (x1 (ix2 o (wcol c d)) : EReal))

end Cert.Proof.KI

end
-- ==== Proof.KernelValue.lean ====
/-
  The idealized kernel's result array, on the extended reals, is the specification of its three argument arrays.

  The grid has one point per batch. At point `t` the frames' window is batch `t` of the frames, the weights' and the
  bias row's windows are their whole arrays (the bias row is the bias vector recast to one row before the region), and
  the result's window is batch `t` of the result. So what point `t` writes back, `OUT` of its three blocks, is at
  frame `r` and class `o` the double sum over channel and feature of the clamped frame of batch `t` times the weight,
  plus the bias (`OUT_apply`): batch `t` of `Spec.G` of the arguments. The sixteen blocks tile the result array,
  hence after the run it holds `Spec.G` of the arguments, and the arguments are unchanged.
-/
import proofs.«124507_j28260884808343_1_alg».proof.Proof.KI.Body
import proofs.«124507_j28260884808343_1_alg».proof.Proof.KI.OutAt
import proofs.«124507_j28260884808343_1_alg».proof.Proof.Spec
import Idealize.ShloMosaic.Lib.StableHlo.Run

noncomputable section

open scoped BigOperators

namespace Cert.Proof.KI

open Cert.KernelIdeal Cert.KernelIdeal.Gen Cert.Proof.Spec
open Idealize.ShloMosaic Idealize.ShloMosaic.ValueIdx
open Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The result array the specification gives from the three argument arrays as launched. -/
abbrev Gm (c : Dev nD) : Buf (Elt Ideal) ((c : Thread nD τ).loc main_v1) :=
  Spec.G (m ((c : Thread nD τ).loc main_arg0)) (m ((c : Thread nD τ).loc main_arg1)) (m ((c : Thread nD τ).loc main_arg2))

/-! ## The windows' blocks on the grid -/

/-- Point `t` is batch `t`: the frames' and the result's block index is `(t, 0, 0)`, the weights' and the bias row's
    `(0, 0)`. Decided over the sixteen points. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 16 := lt_of_lt_of_eq t.isLt N_0

/-- The frames' block at point `t` is batch `t` of the frames. -/
theorem frames_block (c : Dev nD) (t : Fin cfg0.N) (r : Fin 2000) (d : Fin 512) :
    iblk m c 0 t (ix3 (0 : Fin 1) r d) = m ((c : Thread nD τ).loc main_arg0) (ix3 ⟨t.val, point_lt t⟩ r d) := by
  show V m c main_arg0 (((cfg0.win 0).blk t).view.emb (ix3 (0 : Fin 1) r d)) = _
  rw [V_main_arg0]
  obtain ⟨e0, e1, e2, -⟩ := index_facts t
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 2000 + 1 * r.val = r.val; omega
  | ⟨2, _⟩ => show win0_0.index t (2 : Fin 3) * 512 + 1 * d.val = d.val; omega

/-- The weights' block at every point is the whole weight matrix. -/
theorem weights_block (c : Dev nD) (t : Fin cfg0.N) (o : Fin 41) (k : Fin 5632) :
    iblk m c 1 t (ix2 o k) = m ((c : Thread nD τ).loc main_arg1) (ix2 o k) := by
  show V m c main_arg1 (((cfg0.win 1).blk t).view.emb (ix2 o k)) = _
  rw [V_main_arg1]
  obtain ⟨-, -, -, e0, e1, -⟩ := index_facts t
  refine congrArg (m ((c : Thread nD τ).loc main_arg1)) (funext fun a => Fin.ext ?_)
  match a with
  | ⟨0, _⟩ => show win0_1.index t (0 : Fin 2) * 41 + 1 * o.val = o.val; omega
  | ⟨1, _⟩ => show win0_1.index t (1 : Fin 2) * 5632 + 1 * k.val = k.val; omega

/-- The bias row the region finds is the bias vector recast to one row. -/
theorem bias_row (c : Dev nD) :
    (V m c main_v0 : S1x41.Idx → Elt Ideal .f32) = shapeCast S1x41 (m ((c : Thread nD τ).loc main_arg2)) shapeCasts_S41_S1x41 := by
  dsimp only [V, hostOps0]; after_results; rfl

/-- The bias row's block at every point is the bias vector. -/
theorem bias_block (c : Dev nD) (t : Fin cfg0.N) (o : Fin 41) :
    iblk m c 2 t (ix2 (0 : Fin 1) o) = m ((c : Thread nD τ).loc main_arg2) (ix1 o) := by
  show V m c main_v0 (((cfg0.win 2).blk t).view.emb (ix2 (0 : Fin 1) o)) = _
  obtain ⟨-, -, -, -, -, e0, e1, -⟩ := index_facts t
  have he : ((cfg0.win 2).blk t).view.emb (ix2 (0 : Fin 1) o) = ix2 (0 : Fin 1) o := funext fun a => Fin.ext (by
    match a with
    | ⟨0, _⟩ => show win0_2.index t (0 : Fin 2) * 1 + 1 * 0 = 0; omega
    | ⟨1, _⟩ => show win0_2.index t (1 : Fin 2) * 41 + 1 * o.val = o.val; omega)
  rw [he, bias_row]
  exact shapeCast_apply _ shapeCasts_S41_S1x41 (ix2 (0 : Fin 1) o) (ix1 o) (by
    rw [Shape.rowMajor_val_two, Shape.rowMajor_val_one]; show o.val = 0 * 41 + o.val; omega)

/-! ## What a point writes back, and the array after the run -/

/-- Point `t` writes back batch `t` of the specification. -/
theorem flushed_eq (c : Dev nD) (t : Fin cfg0.N) :
    (dats m 0 c).flushed 3 t = ((cfg0.win 3).blk t).view.read (Elt Ideal) (Gm m c) := by
  show (cfg0.win 3).cut (grid0.coords t) ((dats m 0 c).after 3 t) = _
  rw [after0_3]
  funext j
  obtain ⟨b0, r, o, rfl⟩ : ∃ (b0 : Fin 1) (r : Fin 2000) (o : Fin 41), j = ix3 b0 r o := ⟨j 0, j 1, j 2, eq_ix3 j⟩
  obtain rfl : b0 = 0 := Subsingleton.elim _ _
  show OUT (F := Ideal) (iblk m c 0 t) (iblk m c 1 t) (iblk m c 2 t) (ix3 (0 : Fin 1) r o)
    = Gm m c (((cfg0.win 3).blk t).view.emb (ix3 (0 : Fin 1) r o))
  obtain ⟨-, -, -, -, -, -, -, e0, e1, e2⟩ := index_facts t
  have he : ((cfg0.win 3).blk t).view.emb (ix3 (0 : Fin 1) r o) = ix3 ⟨t.val, point_lt t⟩ r o := funext fun a => Fin.ext (by
    match a with
    | ⟨0, _⟩ => show win0_3.index t (0 : Fin 3) * 1 + 1 * 0 = t.val; omega
    | ⟨1, _⟩ => show win0_3.index t (1 : Fin 3) * 2000 + 1 * r.val = r.val; omega
    | ⟨2, _⟩ => show win0_3.index t (2 : Fin 3) * 41 + 1 * o.val = o.val; omega)
  rw [he, OUT_apply]
  show _ = Spec.Gat _ _ _ ⟨t.val, point_lt t⟩ r o
  unfold Spec.Gat
  rw [bias_block]
  refine congrArg (· + _) (Finset.sum_congr rfl fun ch _ => Finset.sum_congr rfl fun d _ => ?_)
  rw [frames_block, weights_block]

/-- An index of the result array is in point `t`'s block iff its batch is `t`. -/
theorem mem_block (t : Fin cfg0.N) (i : S16x2000x41.Idx) :
    i ∈ ((cfg0.win 3).blk t).view.set ↔ ∀ a : Fin 3, win0_3.index t a * S1x2000x41.size a ≤ (i a).val
      ∧ (i a).val < win0_3.index t a * S1x2000x41.size a + S1x2000x41.size a := by
  show i ∈ ((View.whole main_v1).slice (win0_3.rect t)).set ↔ _
  rw [View.set_slice_whole, Rect.mem_set_unit]
  exact Iff.rfl

/-- The sixteen blocks cover the result array. -/
theorem covered (i : S16x2000x41.Idx) :
    ∃ t : Fin cfg0.N, (cfg0.win 3).flush t = true ∧ i ∈ ((cfg0.win 3).blk t).view.set := by
  have hi0 : (i 0).val < 16 := (i 0).isLt
  have hi1 : (i 1).val < 2000 := (i 1).isLt
  have hi2 : (i 2).val < 41 := (i 2).isLt
  let t : Fin cfg0.N := ⟨(i 0).val, lt_of_lt_of_eq hi0 N_0.symm⟩
  obtain ⟨-, -, -, -, -, -, -, e0, e1, e2⟩ := index_facts t
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; have : t.val = (i 0).val := rfl; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 41 ≤ (i 2).val ∧ (i 2).val < win0_3.index t (2 : Fin 3) * 41 + 41; omega

/-- The result array after the run is the specification of the arguments. -/
theorem final_array (c : Dev nD) : (dats m 0 c).arrAt 3 cfg0.N = Gm m c :=
  (dats m 0 c).arrAt_eq_of_cover 3 (Gm m c) (fun t _ => flushed_eq m c t) (covered)

/-- The run with the result named: the result array at the specification, the arguments unchanged. -/
theorem run_value : θ_run defs (onTc (τ := τ) (main (F := Ideal))) ⟨m, fun _ => 0, ρ⟩ (fun r => ∀ c : Dev nD,
      r.2.mem ((c.tc : Thread nD τ).loc main_v1) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main (F := Ideal) m ρ)

end Cert.Proof.KI

end
-- ==== Proof.RefValue.lean ====
/-
  The reference program's result is the specification.

  The reference builds, for every output frame `t` and channel `c`, the integer `clip (t + 5 − c) 0 1999`
  (wrapped by +2000 where negative, which after the clip never happens), gathers the input rows at those
  integers into an array `[16, 2000, 11, 512]`, flattens the last two axes into 5632 columns, contracts
  them with the weight matrix and adds the bias. Read at `(b, t, o)` this is

      Σ_{k < 5632} x[b, srcRow t (k / 512), k % 512] · W[o, k]  +  bias[o],

  and a sum over the 5632 columns is the double sum over channel and feature, which is the specification.

  The steps, in order:
  * the integer chain over 32-bit words: `t + (5 − c)` as a signed word is the integer `t + 5 − c`
    (it lies in `[−5, 2004]`, far from wrap-around), the signed maximum with 0 and minimum with 1999 act on
    the signed values, so the clipped word is `min (t + 5 − c) 1999` over the naturals (truncated
    subtraction is the clamp at zero); it is never negative, so the wrap-around branch is not taken;
  * the gather read at an index: operand axes 0 and 2 are offset axes fed by result axes 0 and 3, operand
    axis 1 is collapsed and takes the start index, clamped into `[0, 1999]`;
  * the reshape: column `512·c + d` of the flattened array is entry `(c, d)` of the last two axes;
  * the contraction, the bias broadcast and the regrouping of the sum.
-/
import proofs.«124507_j28260884808343_1_alg».proof.Proof.Gen.ReferenceIdeal.Read
import proofs.«124507_j28260884808343_1_alg».proof.Proof.Spec

noncomputable section

namespace Cert.Proof.RefValue

open Cert.ReferenceIdeal Cert.ReferenceIdeal.Gen Idealize.ShloMosaic Idealize.ShloMosaic.ValueIdx
open Cert.ReferenceIdeal.Read
open scoped BigOperators

/-- A natural below 2³¹ written as a 32-bit word reads back as itself when the word is read signed. -/
theorem toInt_ofNat_small (a : Nat) (ha : a < 2 ^ 31) : (BitVec.ofNat 32 a).toInt = a := by
  rw [BitVec.toInt_eq_toNat_cond, BitVec.toNat_ofNat]
  split <;> omega

/-- The signed maximum of two words has the larger signed value. -/
theorem maxsi_toInt (x y : BitVec 32) : (IntOp.maxsi x y).toInt = max x.toInt y.toInt := by
  unfold IntOp.maxsi
  split <;> rename_i h <;> simp only [BitVec.slt, decide_eq_true_eq] at h <;> omega

/-- The signed minimum of two words has the smaller signed value. -/
theorem minsi_toInt (x y : BitVec 32) : (IntOp.minsi x y).toInt = min x.toInt y.toInt := by
  unfold IntOp.minsi
  split <;> rename_i h <;> simp only [BitVec.slt, decide_eq_true_eq] at h <;> omega

/-- For `t < 2000` and `c < 11` the word `t + (5 − c)` has signed value `t + 5 − c`: no wrap-around. -/
theorem sum_toInt (t c : Nat) (ht : t < 2000) (hc : c < 11) :
    (IntOp.addi (BitVec.ofNat 32 t) (IntOp.subi 5#32 (BitVec.ofNat 32 c))).toInt = (t : Int) + 5 - c := by
  unfold IntOp.addi IntOp.subi
  rw [BitVec.toInt_eq_toNat_cond]
  simp only [BitVec.toNat_add, BitVec.toNat_sub, BitVec.toNat_ofNat]
  split <;> omega

/-- The clipped index as a word: `min 1999 (max 0 (t + 5 − c))` is `min (t + 5 − c) 1999` over the naturals, and the
    branch that adds 2000 to a negative index is not taken. -/
theorem clipWord (t c : Nat) (ht : t < 2000) (hc : c < 11) :
    Scalar.select
      (IntOp.cmpi .slt (IntOp.minsi 1999#32 (IntOp.maxsi 0#32 (IntOp.addi (BitVec.ofNat 32 t) (IntOp.subi 5#32 (BitVec.ofNat 32 c))))) 0#32)
      (IntOp.addi (IntOp.minsi 1999#32 (IntOp.maxsi 0#32 (IntOp.addi (BitVec.ofNat 32 t) (IntOp.subi 5#32 (BitVec.ofNat 32 c))))) 2000#32)
      (IntOp.minsi 1999#32 (IntOp.maxsi 0#32 (IntOp.addi (BitVec.ofNat 32 t) (IntOp.subi 5#32 (BitVec.ofNat 32 c)))))
    = BitVec.ofNat 32 (min (t + 5 - c) 1999) := by
  have h9 : (IntOp.minsi 1999#32 (IntOp.maxsi 0#32 (IntOp.addi (BitVec.ofNat 32 t) (IntOp.subi 5#32 (BitVec.ofNat 32 c))))).toInt
      = ((min (t + 5 - c) 1999 : Nat) : Int) := by
    rw [minsi_toInt, maxsi_toInt, sum_toInt t c ht hc]
    have h0 : (0#32 : BitVec 32).toInt = 0 := by decide
    have h1 : (1999#32 : BitVec 32).toInt = 1999 := by decide
    rw [h0, h1]; omega
  generalize IntOp.minsi 1999#32 (IntOp.maxsi 0#32 (IntOp.addi (BitVec.ofNat 32 t) (IntOp.subi 5#32 (BitVec.ofNat 32 c)))) = v at h9
  have hc0 : IntOp.cmpi .slt v 0#32 = 0#1 := by
    unfold IntOp.cmpi
    have : v.slt 0#32 = false := by
      simp only [BitVec.slt, h9, decide_eq_false_iff_not]
      have h0 : (0#32 : BitVec 32).toInt = 0 := by decide
      rw [h0]; omega
    rw [this]; rfl
  rw [hc0, select_zero]
  apply BitVec.eq_of_toInt_eq
  rw [h9, toInt_ofNat_small _ (by omega)]

/-- The reference's index array at `(t, c)` is the source row of the specification. -/
theorem v14_ix (t : Fin 2000) (c : Fin 11) :
    val_main_v14 (F := Ideal) (ix2 t c) = BitVec.ofNat 32 (Spec.srcRow t c).val := by
  simp only [val_main_v14_apply, val_main_v11_apply, val_main_v13_apply, val_main_v9_apply, val_main_v12_apply,
    val_main_v10_apply, val_main_call0_v4_apply, val_main_call0_v3_apply, val_main_call0_v2_apply, val_main_call0_v1_apply,
    val_main_call0_v0_apply, val_main_c_0_apply, val_main_c_1_apply, val_main_c_2_apply, val_main_c_3_apply,
    val_main_v8_apply, val_main_v7_apply, val_main_v6_apply, val_main_v5_apply, val_main_v4_apply, val_main_v3_apply,
    val_main_v2_apply, val_main_v1_apply, val_main_v0_apply, val_main_c_apply]
  exact clipWord t.val c.val t.isLt c.isLt

/-- The gather's dimension numbers: offset axes 0 and 3 of the result, operand axis 1 collapsed and indexed. -/
abbrev gd := gather_S16x2000x512_S2000x11x1_S16x2000x11x512_03_1_n_n_1_2_161512

/-- The gather read at `(b, t, c, e)`: the operand at batch `b`, feature `e`, and the row given by the start index at
    `(t, c, 0)`, read signed and clamped into `[0, 1999]`. -/
theorem gather_apply {α : Type} (x0 : S16x2000x512.Idx → α) (idx : IVec S2000x11x1 32)
    (b : Fin 16) (t : Fin 2000) (c : Fin 11) (e : Fin 512) :
    Host.gather gd x0 idx (ix4 b t c e)
      = x0 (ix3 b ⟨min (idx (ix3 t c 0)).toInt.toNat 1999, by omega⟩ e) := by
  unfold Host.gather
  congr 1
  funext a
  refine Fin.ext ?_
  match a with
  | ⟨0, _⟩ =>
    show gd.start (ix4 b t c e) idx 0 + gd.batchCoord (ix4 b t c e) 0 + gd.offCoord (ix4 b t c e) 0 = b.val
    rw [GatherDims.batchCoord_eq_zero _ _ _ List.not_mem_nil]
    unfold GatherDims.start
    rw [dif_neg (show ¬ (0 : Fin S16x2000x512.rank) ∈ gd.startIndexMap by decide)]
    unfold GatherDims.offCoord
    rw [dif_pos (show (0 : Fin S16x2000x512.rank) ∈ gd.sKept by decide)]
    simp only [Nat.zero_add]
    rfl
  | ⟨1, _⟩ =>
    show gd.start (ix4 b t c e) idx 1 + gd.batchCoord (ix4 b t c e) 1 + gd.offCoord (ix4 b t c e) 1
      = min (idx (ix3 t c 0)).toInt.toNat 1999
    rw [GatherDims.batchCoord_eq_zero _ _ _ List.not_mem_nil,
      GatherDims.offCoord_eq_zero _ _ _ (show ¬ (1 : Fin S16x2000x512.rank) ∈ gd.sKept by decide)]
    simp only [Nat.add_zero]
    unfold GatherDims.start
    rw [dif_pos (show (1 : Fin S16x2000x512.rank) ∈ gd.startIndexMap by decide)]
    have hsi : gd.siIdx (ix4 b t c e) ⟨List.idxOf (1 : Fin S16x2000x512.rank) gd.startIndexMap,
        List.idxOf_lt_length_iff.2 (show (1 : Fin S16x2000x512.rank) ∈ gd.startIndexMap by decide)⟩ = ix3 t c 0 := by
      funext k; refine Fin.ext ?_
      match k with
      | ⟨0, _⟩ => rfl
      | ⟨1, _⟩ => rfl
      | ⟨2, _⟩ => rfl
    rw [hsi]
    rfl
  | ⟨2, _⟩ =>
    show gd.start (ix4 b t c e) idx 2 + gd.batchCoord (ix4 b t c e) 2 + gd.offCoord (ix4 b t c e) 2 = e.val
    rw [GatherDims.batchCoord_eq_zero _ _ _ List.not_mem_nil]
    unfold GatherDims.start
    rw [dif_neg (show ¬ (2 : Fin S16x2000x512.rank) ∈ gd.startIndexMap by decide)]
    unfold GatherDims.offCoord
    rw [dif_pos (show (2 : Fin S16x2000x512.rank) ∈ gd.sKept by decide)]
    simp only [Nat.zero_add]
    rfl

/-- Column `512·c + e` of the flattened array at `(b, t)` is entry `(b, t, c, e)` before flattening. -/
theorem idx17_wcol (b : Fin 16) (t : Fin 2000) (o : Fin 41) (c : Fin 11) (e : Fin 512) :
    idx_main_v17 (lidx_main_v18 (ix3 b t o) (Spec.wcol c e)) = ix4 b t c e := by
  have hb := b.isLt; have ht := t.isLt; have hc := c.isLt; have he := e.isLt
  funext a; refine Fin.ext ?_
  match a with
  | ⟨0, _⟩ => show ((b.val * 2000 + t.val) * 5632 + (512 * c.val + e.val)) / 11264000 = b.val; omega
  | ⟨1, _⟩ => show ((b.val * 2000 + t.val) * 5632 + (512 * c.val + e.val)) / 5632 % 2000 = t.val; omega
  | ⟨2, _⟩ => show ((b.val * 2000 + t.val) * 5632 + (512 * c.val + e.val)) / 512 % 11 = c.val; omega
  | ⟨3, _⟩ => show ((b.val * 2000 + t.val) * 5632 + (512 * c.val + e.val)) % 512 = e.val; omega

/-- The index array with its trailing unit axis, at `(t, c, 0)`. -/
theorem v15_ix (t : Fin 2000) (c : Fin 11) :
    val_main_v15 (F := Ideal) (ix3 t c 0) = BitVec.ofNat 32 (Spec.srcRow t c).val := by
  rw [val_main_v15_apply]
  exact v14_ix t c

/-- The same read, with the clamped row named. -/
theorem gather_at {α : Type} (x0 : S16x2000x512.Idx → α) (idx : IVec S2000x11x1 32)
    (b : Fin 16) (t : Fin 2000) (c : Fin 11) (e : Fin 512) (r : Fin 2000)
    (hr : min (idx (ix3 t c 0)).toInt.toNat 1999 = r.val) :
    Host.gather gd x0 idx (ix4 b t c e) = x0 (ix3 b r e) := by
  rw [gather_apply]
  congr 1
  funext a
  match a with
  | ⟨0, _⟩ => rfl
  | ⟨1, _⟩ => exact Fin.ext hr
  | ⟨2, _⟩ => rfl

/-- The flattened gathered array at column `512·c + e`: the input at the source row. -/
theorem v17_at (x0 : (⟨S16x2000x512, .f32⟩ : BufTy).Contents (Elt Ideal)) (b : Fin 16) (t : Fin 2000) (o : Fin 41)
    (c : Fin 11) (e : Fin 512) :
    val_main_v17 (F := Ideal) x0 (lidx_main_v18 (ix3 b t o) (Spec.wcol c e)) = x0 (ix3 b (Spec.srcRow t c) e) := by
  rw [val_main_v17_apply, idx17_wcol]
  have hs : (Spec.srcRow t c).val ≤ 1999 := by have := (Spec.srcRow t c).isLt; omega
  refine gather_at x0 (val_main_v15 (F := Ideal)) b t c e (Spec.srcRow t c) ?_
  rw [v15_ix, toInt_ofNat_small _ (by omega)]
  omega

/-- The reference's result, as the generated stages compose it, is the specification. -/
theorem ref_eq_G (x0 : (⟨S16x2000x512, .f32⟩ : BufTy).Contents (Elt Ideal)) (x1 : (⟨S41x5632, .f32⟩ : BufTy).Contents (Elt Ideal))
    (x2 : (⟨S41, .f32⟩ : BufTy).Contents (Elt Ideal)) :
    Cert.ReferenceIdeal.Read.val_main_v21 (F := Ideal) x0 x1 x2 = Cert.Proof.Spec.G x0 x1 x2 := by
  funext i
  obtain ⟨b, t, o, rfl⟩ : ∃ b t o, i = ix3 b t o := ⟨i 0, i 1, i 2, eq_ix3 i⟩
  rw [Spec.G_ix3]
  unfold Spec.Gat
  rw [val_main_v21_apply, val_main_v18_apply, val_main_v20_apply, val_main_v19_apply, Spec.sum_split]
  show (∑ c : Fin 11, ∑ e : Fin 512,
      val_main_v17 (F := Ideal) x0 (lidx_main_v18 (ix3 b t o) (Spec.wcol c e)) * x1 (ridx_main_v18 (ix3 b t o) (Spec.wcol c e)))
      + x2 (idx_main_v19 (idx_main_v20 (ix3 b t o))) = _
  congr 1
  · refine Finset.sum_congr rfl fun c _ => Finset.sum_congr rfl fun e _ => ?_
    rw [v17_at]
    congr 2
    funext a
    match a with
    | ⟨0, _⟩ => rfl
    | ⟨1, _⟩ => rfl
  · congr 1
    funext a
    match a with
    | ⟨0, _⟩ => rfl

end Cert.Proof.RefValue

end
-- ==== Proof.lean ====
/-
  The certificate of the windowed frame-concatenation kernel against its reference.

  For every batch `b`, frame `t` and class `o` both programs compute, on the extended reals,

      Σ_{c < 11} Σ_{d < 512} x[b, clamp (t + 5 − c) 0 1999, d] · W[o, 512·c + d]  +  bias[o]    (Proof/Spec.lean).

  The kernel (one grid point per batch) writes the batch's frames into a scratch with the first and the last frame
  repeated five times at either end, multiplies each of the eleven shifted windows of it with the matching 512 columns of
  the weights into a zero accumulator, adds the eleven products and then the bias (Proof/KI/Out.lean, Proof/KI/OutAt.lean);
  that the scratch holds the padded frames whatever it held before is Proof/KI/Padded.lean. The reference gathers the
  clamped frames, lays the eleven channels side by side and contracts the 5632 columns at once (Proof/RefValue.lean). The
  two groupings of the sum agree because addition of extended reals is commutative and associative; no finiteness of
  the inputs is used, and the precondition is never opened.

  The frames: for the kernel, at the word level and idealized, the body's triple and the pipeline's proof data give the
  run with the arguments unchanged (Proof/K/Body.lean, Proof/KI/Body.lean: one text, for any float instance); the
  reference's frame is its run with the result dropped. The idealization rewrote nothing, so `preserves` is trivial.
-/
import proofs.«124507_j28260884808343_1_alg».proof.Defs
import proofs.«124507_j28260884808343_1_alg».proof.Proof.Gen.Kernel
import proofs.«124507_j28260884808343_1_alg».proof.Proof.Gen.Kernel.Skeleton
import proofs.«124507_j28260884808343_1_alg».proof.Proof.Gen.Kernel.Launch
import proofs.«124507_j28260884808343_1_alg».proof.Proof.Gen.Kernel.Points
import proofs.«124507_j28260884808343_1_alg».proof.Proof.Gen.Kernel.Frame
import proofs.«124507_j28260884808343_1_alg».proof.Proof.Gen.KernelIdeal
import proofs.«124507_j28260884808343_1_alg».proof.Proof.Gen.KernelIdeal.Skeleton
import proofs.«124507_j28260884808343_1_alg».proof.Proof.Gen.KernelIdeal.Launch
import proofs.«124507_j28260884808343_1_alg».proof.Proof.Gen.KernelIdeal.Points
import proofs.«124507_j28260884808343_1_alg».proof.Proof.Gen.KernelIdeal.Frame
import proofs.«124507_j28260884808343_1_alg».proof.Proof.Gen.ReferenceIdeal
import proofs.«124507_j28260884808343_1_alg».proof.Proof.Gen.ReferenceIdeal.Run
import proofs.«124507_j28260884808343_1_alg».proof.Proof.Gen.ReferenceIdeal.Read
import proofs.«124507_j28260884808343_1_alg».proof.Proof.Gen.Pre_finite_inputs
import proofs.«124507_j28260884808343_1_alg».proof.Proof.K.Body
import proofs.«124507_j28260884808343_1_alg».proof.Proof.KI.Body
import proofs.«124507_j28260884808343_1_alg».proof.Proof.KernelValue
import proofs.«124507_j28260884808343_1_alg».proof.Proof.RefValue
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Proof.K.frame (F := Bits) m ρ

/-- So does the idealized kernel. -/
theorem frame_kernelIdeal : Cert.frame_KernelIdeal := fun m ρ _ => Cert.Proof.KI.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel's result array and the reference's are both the specification of the (agreeing) arguments. -/
theorem algebraic : Cert.algebraic_KernelIdeal_ReferenceIdeal := by
  intro m ρ m' ρ' _ hagree
  refine ⟨fun c => Cert.Proof.KI.Gm m c, Cert.Proof.KI.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _ _).trans ((Cert.Proof.RefValue.ref_eq_G _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
